-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3x60x240 : Shape := ⟨4, ![1024, 3, 60, 240]⟩
abbrev S360x180 : Shape := ⟨2, ![360, 180]⟩
abbrev S360 : Shape := ⟨1, ![360]⟩
abbrev S360x90 : Shape := ⟨2, ![360, 90]⟩
abbrev S40x21600 : Shape := ⟨2, ![40, 21600]⟩
abbrev S40 : Shape := ⟨1, ![40]⟩
abbrev S_ : Shape := ⟨0, ![]⟩

class Facts : Prop where
  bcast_S_S1024x3x60x240 : S_.BroadcastsInDim S1024x3x60x240 (![] : Fin 0 → Fin S1024x3x60x240.rank)
  reducesTo_S1024x3x60x240_S_d0_1_2_3 : S1024x3x60x240.ReducesTo [0, 1, 2, 3] S_
  h_S_ : 0 < S_.numel
  bcast_S_S360x180 : S_.BroadcastsInDim S360x180 (![] : Fin 0 → Fin S360x180.rank)
  reducesTo_S360x180_S_d0_1 : S360x180.ReducesTo [0, 1] S_
  bcast_S_S360 : S_.BroadcastsInDim S360 (![] : Fin 0 → Fin S360.rank)
  reducesTo_S360_S_d0 : S360.ReducesTo [0] S_
  bcast_S_S360x90 : S_.BroadcastsInDim S360x90 (![] : Fin 0 → Fin S360x90.rank)
  reducesTo_S360x90_S_d0_1 : S360x90.ReducesTo [0, 1] S_
  bcast_S_S40x21600 : S_.BroadcastsInDim S40x21600 (![] : Fin 0 → Fin S40x21600.rank)
  reducesTo_S40x21600_S_d0_1 : S40x21600.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40x21600 .f32) (main_arg8 : FVec F S40 .f32) (main_v33 : IVec S_ 1) : IVec S_ 1 :=
  let main_v34 : FVec F S40x21600 .f32 := Host.absf main_arg7
  let main_cst_12 : FVec F S_ .f32 := constant S_ .f32 0x7F800000#32
  let main_v35 : FVec F S40x21600 .f32 := broadcastInDim S40x21600 ![] bcast_S_S40x21600 main_cst_12
  let main_v36 : IVec S40x21600 1 := cmpf .olt main_v34 main_v35
  let main_c_13 : IVec S_ 1 := constantI S_ 1 1#1
  let main_v37 : IVec S_ 1 := (fun x v => Host.reduce IntOp.andi x v reducesTo_S40x21600_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S360x90 .f32) (main_arg5 : FVec F S360 .f32) (main_arg6 : FVec F S360 .f32) (main_arg7 : FVec F S40x21600 .f32) (main_arg8 : FVec F S40 .f32) (main_v13 : IVec S_ 1) (main_v16 : IVec S360 1) : IVec S_ 1 :=
  let main_c_5 : IVec S_ 1 := constantI S_ 1 1#1
  let main_v17 : IVec S_ 1 := (fun x v => Host.reduce IntOp.andi x v reducesTo_S360_S_d0 h_S_) main_v16 main_c_5
  let main_v18 : IVec S_ 1 := andi main_v13 main_v17
  let main_v19 : FVec F S360x90 .f32 := Host.absf main_arg4
  let main_cst_6 : FVec F S_ .f32 := constant S_ .f32 0x7F800000#32
  let main_v20 : FVec F S360x90 .f32 := broadcastInDim S360x90 ![] bcast_S_S360x90 main_cst_6
  let main_v21 : IVec S360x90 1 := cmpf .olt main_v19 main_v20
  let main_c_7 : IVec S_ 1 := constantI S_ 1 1#1
  let main_v22 : IVec S_ 1 := (fun x v => Host.reduce IntOp.andi x v reducesTo_S360x90_S_d0_1 h_S_) main_v21 main_c_7
  let main_v23 : IVec S_ 1 := andi main_v18 main_v22
  let main_v24 : FVec F S360 .f32 := Host.absf main_arg5
  let main_cst_8 : FVec F S_ .f32 := constant S_ .f32 0x7F800000#32
  let main_v25 : FVec F S360 .f32 := broadcastInDim S360 ![] bcast_S_S360 main_cst_8
  let main_v26 : IVec S360 1 := cmpf .olt main_v24 main_v25
  let main_c_9 : IVec S_ 1 := constantI S_ 1 1#1
  let main_v27 : IVec S_ 1 := (fun x v => Host.reduce IntOp.andi x v reducesTo_S360_S_d0 h_S_) main_v26 main_c_9
  let main_v28 : IVec S_ 1 := andi main_v23 main_v27
  let main_v29 : FVec F S360 .f32 := Host.absf main_arg6
  let main_cst_10 : FVec F S_ .f32 := constant S_ .f32 0x7F800000#32
  let main_v30 : FVec F S360 .f32 := broadcastInDim S360 ![] bcast_S_S360 main_cst_10
  let main_v31 : IVec S360 1 := cmpf .olt main_v29 main_v30
  let main_c_11 : IVec S_ 1 := constantI S_ 1 1#1
  let main_v32 : IVec S_ 1 := (fun x v => Host.reduce IntOp.andi x v reducesTo_S360_S_d0 h_S_) main_v31 main_c_11
  let main_v33 : IVec S_ 1 := andi main_v28 main_v32
  fn_part2 (F := F) main_arg7 main_arg8 main_v33

def fn {F : FTy → Type} [FloatOps F] (main_arg0 : FVec F S1024x3x60x240 .f32) (main_arg1 : FVec F S360x180 .f32) (main_arg2 : FVec F S360 .f32) (main_arg3 : FVec F S360 .f32) (main_arg4 : FVec F S360x90 .f32) (main_arg5 : FVec F S360 .f32) (main_arg6 : FVec F S360 .f32) (main_arg7 : FVec F S40x21600 .f32) (main_arg8 : FVec F S40 .f32) : IVec S_ 1 :=
  let main_v0 : FVec F S1024x3x60x240 .f32 := Host.absf main_arg0
  let main_cst : FVec F S_ .f32 := constant S_ .f32 0x7F800000#32
  let main_v1 : FVec F S1024x3x60x240 .f32 := broadcastInDim S1024x3x60x240 ![] bcast_S_S1024x3x60x240 main_cst
  let main_v2 : IVec S1024x3x60x240 1 := cmpf .olt main_v0 main_v1
  let main_c : IVec S_ 1 := constantI S_ 1 1#1
  let main_v3 : IVec S_ 1 := (fun x v => Host.reduce IntOp.andi x v reducesTo_S1024x3x60x240_S_d0_1_2_3 h_S_) main_v2 main_c
  let main_v4 : FVec F S360x180 .f32 := Host.absf main_arg1
  let main_cst_0 : FVec F S_ .f32 := constant S_ .f32 0x7F800000#32
  let main_v5 : FVec F S360x180 .f32 := broadcastInDim S360x180 ![] bcast_S_S360x180 main_cst_0
  let main_v6 : IVec S360x180 1 := cmpf .olt main_v4 main_v5
  let main_c_1 : IVec S_ 1 := constantI S_ 1 1#1
  let main_v7 : IVec S_ 1 := (fun x v => Host.reduce IntOp.andi x v reducesTo_S360x180_S_d0_1 h_S_) main_v6 main_c_1
  let main_v8 : IVec S_ 1 := andi main_v3 main_v7
  let main_v9 : FVec F S360 .f32 := Host.absf main_arg2
  let main_cst_2 : FVec F S_ .f32 := constant S_ .f32 0x7F800000#32
  let main_v10 : FVec F S360 .f32 := broadcastInDim S360 ![] bcast_S_S360 main_cst_2
  let main_v11 : IVec S360 1 := cmpf .olt main_v9 main_v10
  let main_c_3 : IVec S_ 1 := constantI S_ 1 1#1
  let main_v12 : IVec S_ 1 := (fun x v => Host.reduce IntOp.andi x v reducesTo_S360_S_d0 h_S_) main_v11 main_c_3
  let main_v13 : IVec S_ 1 := andi main_v8 main_v12
  let main_v14 : FVec F S360 .f32 := Host.absf main_arg3
  let main_cst_4 : FVec F S_ .f32 := constant S_ .f32 0x7F800000#32
  let main_v15 : FVec F S360 .f32 := broadcastInDim S360 ![] bcast_S_S360 main_cst_4
  let main_v16 : IVec S360 1 := cmpf .olt main_v14 main_v15
  fn_part1 (F := F) main_arg4 main_arg5 main_arg6 main_arg7 main_arg8 main_v13 main_v16
-- ==== Kernel.lean ====
abbrev S1024x3x60x240 : Shape := ⟨4, ![1024, 3, 60, 240]⟩
abbrev S360x180 : Shape := ⟨2, ![360, 180]⟩
abbrev S360 : Shape := ⟨1, ![360]⟩
abbrev S360x90 : Shape := ⟨2, ![360, 90]⟩
abbrev S40x21600 : Shape := ⟨2, ![40, 21600]⟩
abbrev S40 : Shape := ⟨1, ![40]⟩
abbrev S1024x240x3x60 : Shape := ⟨4, ![1024, 240, 3, 60]⟩
abbrev S1024x240x180 : Shape := ⟨3, ![1024, 240, 180]⟩
abbrev S40x240x90 : Shape := ⟨3, ![40, 240, 90]⟩
abbrev S1024x40 : Shape := ⟨2, ![1024, 40]⟩
abbrev S64x24x180 : Shape := ⟨3, ![64, 24, 180]⟩
abbrev S40x24x90 : Shape := ⟨3, ![40, 24, 90]⟩
abbrev S64x40 : Shape := ⟨2, ![64, 40]⟩
abbrev S1536x180 : Shape := ⟨2, ![1536, 180]⟩
abbrev S1536x360 : Shape := ⟨2, ![1536, 360]⟩
abbrev S64x24x360 : Shape := ⟨3, ![64, 24, 360]⟩
abbrev S1x1x360 : Shape := ⟨3, ![1, 1, 360]⟩
abbrev S64x24x90 : Shape := ⟨3, ![64, 24, 90]⟩
abbrev S1536x90 : Shape := ⟨2, ![1536, 90]⟩
abbrev S64x1x90 : Shape := ⟨3, ![64, 1, 90]⟩
abbrev S64x90 : Shape := ⟨2, ![64, 90]⟩
abbrev S40x1x90 : Shape := ⟨3, ![40, 1, 90]⟩
abbrev S40x90 : Shape := ⟨2, ![40, 90]⟩
abbrev S1x40 : Shape := ⟨2, ![1, 40]⟩
abbrev S1024x4x10 : Shape := ⟨3, ![1024, 4, 10]⟩
abbrev S_ : Shape := ⟨0, ![]⟩
abbrev S1024x4 : Shape := ⟨2, ![1024, 4]⟩
abbrev S1024x4x1 : Shape := ⟨3, ![1024, 4, 1]⟩

abbrev nBuf : Space → Nat
  | .hbm => 34
  | .vmem => 12
  | .smem => 0
  | _ => 0

abbrev bufTy : (tb : Table) → Fin (tcTables nBuf tb) → BufTy
  | .hbm, ⟨0, _⟩ => ⟨S1024x3x60x240, .f32⟩
  | .hbm, ⟨1, _⟩ => ⟨S360x180, .f32⟩
  | .hbm, ⟨2, _⟩ => ⟨S360, .f32⟩
  | .hbm, ⟨3, _⟩ => ⟨S360, .f32⟩
  | .hbm, ⟨4, _⟩ => ⟨S360x90, .f32⟩
  | .hbm, ⟨5, _⟩ => ⟨S360, .f32⟩
  | .hbm, ⟨6, _⟩ => ⟨S360, .f32⟩
  | .hbm, ⟨7, _⟩ => ⟨S40x21600, .f32⟩
  | .hbm, ⟨8, _⟩ => ⟨S40, .f32⟩
  | .hbm, ⟨9, _⟩ => ⟨S1024x240x3x60, .f32⟩
  | .hbm, ⟨10, _⟩ => ⟨S1024x240x180, .f32⟩
  | .hbm, ⟨11, _⟩ => ⟨S1024x240x180, .bf16⟩
  | .hbm, ⟨12, _⟩ => ⟨S360x180, .bf16⟩
  | .hbm, ⟨13, _⟩ => ⟨S360, .f32⟩
  | .hbm, ⟨14, _⟩ => ⟨S360x90, .bf16⟩
  | .hbm, ⟨15, _⟩ => ⟨S360, .f32⟩
  | .hbm, ⟨16, _⟩ => ⟨S40x240x90, .f32⟩
  | .hbm, ⟨17, _⟩ => ⟨S40x240x90, .bf16⟩
  | .hbm, ⟨18, _⟩ => ⟨S1024x40, .f32⟩
  | .hbm, ⟨19, _⟩ => ⟨S1024x4x10, .f32⟩
  | .hbm, ⟨20, _⟩ => ⟨S_, .f32⟩
  | .hbm, ⟨21, _⟩ => ⟨S1024x4, .f32⟩
  | .hbm, ⟨22, _⟩ => ⟨S_, .f32⟩
  | .hbm, ⟨23, _⟩ => ⟨S1024x4, .f32⟩
  | .hbm, ⟨24, _⟩ => ⟨S1024x4, .f32⟩
  | .hbm, ⟨25, _⟩ => ⟨S1024x4x1, .f32⟩
  | .hbm, ⟨26, _⟩ => ⟨S1024x4x10, .f32⟩
  | .hbm, ⟨27, _⟩ => ⟨S1024x4x10, .f32⟩
  | .hbm, ⟨28, _⟩ => ⟨S1024x4x10, .f32⟩
  | .hbm, ⟨29, _⟩ => ⟨S_, .f32⟩
  | .hbm, ⟨30, _⟩ => ⟨S1024x4, .f32⟩
  | .hbm, ⟨31, _⟩ => ⟨S1024x4x1, .f32⟩
  | .hbm, ⟨32, _⟩ => ⟨S1024x4x10, .f32⟩
  | .hbm, ⟨33, _⟩ => ⟨S1024x4x10, .f32⟩
  | .local _ .vmem, ⟨0, _⟩ => ⟨S64x24x180, .bf16⟩
  | .local _ .vmem, ⟨1, _⟩ => ⟨S64x24x180, .bf16⟩
  | .local _ .vmem, ⟨2, _⟩ => ⟨S360x180, .bf16⟩
  | .local _ .vmem, ⟨3, _⟩ => ⟨S360, .f32⟩
  | .local _ .vmem, ⟨4, _⟩ => ⟨S360x90, .bf16⟩
  | .local _ .vmem, ⟨5, _⟩ => ⟨S360, .f32⟩
  | .local _ .vmem, ⟨6, _⟩ => ⟨S40x24x90, .bf16⟩
  | .local _ .vmem, ⟨7, _⟩ => ⟨S40x24x90, .bf16⟩
  | .local _ .vmem, ⟨8, _⟩ => ⟨S40, .f32⟩
  | .local _ .vmem, ⟨9, _⟩ => ⟨S64x40, .f32⟩
  | .local _ .vmem, ⟨10, _⟩ => ⟨S64x40, .f32⟩
  | .local _ .vmem, ⟨11, _⟩ => ⟨S64x40, .f32⟩
  | _, _ => ⟨S1024x3x60x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v198 : BitVec 1 := Scalar.cmpi .eq arg1 c9_i32
  let v199 : BitVec 32 := Scalar.extui v198
  let c0_i32_42 : BitVec 32 := 0#32
  let v200 : BitVec 1 := Scalar.cmpi .ne v199 c0_i32_42
  v200

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x24x180 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S360x180 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S360x90 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S40x24x90 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S1024x3x60x240_S1024x240x3x60_0_3_1_2 : S1024x3x60x240.Transposes [0, 3, 1, 2] S1024x240x3x60
  shapeCasts_S1024x240x3x60_S1024x240x180 : S1024x240x3x60.ShapeCasts S1024x240x180
  bitsLt_bf16_f32 : FTy.bits .bf16 < FTy.bits .f32
  shapeCasts_S40x21600_S40x240x90 : S40x21600.ShapeCasts S40x240x90
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S64x24x180_S64x24x180_0_0_0 : ∀ a, (![0, 0, 0] : Fin 3 → Nat) a + S64x24x180.size a ≤ S64x24x180.size a
  h_S64x24x180 : 0 < S64x24x180.numel
  shapeCasts_S64x24x180_S64x24x180 : S64x24x180.ShapeCasts S64x24x180
  shapeCasts_S64x24x180_S1536x180 : S64x24x180.ShapeCasts S1536x180
  inb_S360x180_S360x180_0_0 : ∀ a, (![0, 0] : Fin 2 → Nat) a + S360x180.size a ≤ S360x180.size a
  h_S360x180 : 0 < S360x180.numel
  shapeCasts_S360x180_S360x180 : S360x180.ShapeCasts S360x180
  shapeCasts_S1536x360_S64x24x360 : S1536x360.ShapeCasts S64x24x360
  inb_S360_S360_0 : ∀ a, (![0] : Fin 1 → Nat) a + S360.size a ≤ S360.size a
  h_S360 : 0 < S360.numel
  shapeCasts_S360_S360 : S360.ShapeCasts S360
  shapeCasts_S360_S1x1x360 : S360.ShapeCasts S1x1x360
  broadcasts_S1x1x360_S64x24x360 : S1x1x360.Broadcasts S64x24x360
  slices_S64x24x360_o0_0_0_S64x24x90 : S64x24x360.Slices ![0, 0, 0] S64x24x90
  slices_S64x24x360_o0_0_180_S64x24x90 : S64x24x360.Slices ![0, 0, 180] S64x24x90
  slices_S64x24x360_o0_0_270_S64x24x90 : S64x24x360.Slices ![0, 0, 270] S64x24x90
  shapeCasts_S64x24x90_S1536x90 : S64x24x90.ShapeCasts S1536x90
  inb_S360x90_S360x90_0_0 : ∀ a, (![0, 0] : Fin 2 → Nat) a + S360x90.size a ≤ S360x90.size a
  h_S360x90 : 0 < S360x90.numel
  shapeCasts_S360x90_S360x90 : S360x90.ShapeCasts S360x90
  inb_S40x24x90_S40x24x90_0_0_0 : ∀ a, (![0, 0, 0] : Fin 3 → Nat) a + S40x24x90.size a ≤ S40x24x90.size a
  h_S40x24x90 : 0 < S40x24x90.numel
  shapeCasts_S40x24x90_S40x24x90 : S40x24x90.ShapeCasts S40x24x90
  slices_S64x24x90_o0_0_0_S64x1x90 : S64x24x90.Slices ![0, 0, 0] S64x1x90
  shapeCasts_S64x1x90_S64x90 : S64x1x90.ShapeCasts S64x90
  slices_S40x24x90_o0_0_0_S40x1x90 : S40x24x90.Slices ![0, 0, 0] S40x1x90
  shapeCasts_S40x1x90_S40x90 : S40x1x90.ShapeCasts S40x90
  slices_S64x24x90_o0_1_0_S64x1x90 : S64x24x90.Slices ![0, 1, 0] S64x1x90
  slices_S40x24x90_o0_1_0_S40x1x90 : S40x24x90.Slices ![0, 1, 0] S40x1x90
  slices_S64x24x90_o0_2_0_S64x1x90 : S64x24x90.Slices ![0, 2, 0] S64x1x90
  slices_S40x24x90_o0_2_0_S40x1x90 : S40x24x90.Slices ![0, 2, 0] S40x1x90
  slices_S64x24x90_o0_3_0_S64x1x90 : S64x24x90.Slices ![0, 3, 0] S64x1x90
  slices_S40x24x90_o0_3_0_S40x1x90 : S40x24x90.Slices ![0, 3, 0] S40x1x90
  slices_S64x24x90_o0_4_0_S64x1x90 : S64x24x90.Slices ![0, 4, 0] S64x1x90
  slices_S40x24x90_o0_4_0_S40x1x90 : S40x24x90.Slices ![0, 4, 0] S40x1x90
  slices_S64x24x90_o0_5_0_S64x1x90 : S64x24x90.Slices ![0, 5, 0] S64x1x90
  slices_S40x24x90_o0_5_0_S40x1x90 : S40x24x90.Slices ![0, 5, 0] S40x1x90
  slices_S64x24x90_o0_6_0_S64x1x90 : S64x24x90.Slices ![0, 6, 0] S64x1x90
  slices_S40x24x90_o0_6_0_S40x1x90 : S40x24x90.Slices ![0, 6, 0] S40x1x90
  slices_S64x24x90_o0_7_0_S64x1x90 : S64x24x90.Slices ![0, 7, 0] S64x1x90
  slices_S40x24x90_o0_7_0_S40x1x90 : S40x24x90.Slices ![0, 7, 0] S40x1x90
  slices_S64x24x90_o0_8_0_S64x1x90 : S64x24x90.Slices ![0, 8, 0] S64x1x90
  slices_S40x24x90_o0_8_0_S40x1x90 : S40x24x90.Slices ![0, 8, 0] S40x1x90
  slices_S64x24x90_o0_9_0_S64x1x90 : S64x24x90.Slices ![0, 9, 0] S64x1x90
  slices_S40x24x90_o0_9_0_S40x1x90 : S40x24x90.Slices ![0, 9, 0] S40x1x90
  slices_S64x24x90_o0_10_0_S64x1x90 : S64x24x90.Slices ![0, 10, 0] S64x1x90
  slices_S40x24x90_o0_10_0_S40x1x90 : S40x24x90.Slices ![0, 10, 0] S40x1x90
  slices_S64x24x90_o0_11_0_S64x1x90 : S64x24x90.Slices ![0, 11, 0] S64x1x90
  slices_S40x24x90_o0_11_0_S40x1x90 : S40x24x90.Slices ![0, 11, 0] S40x1x90
  slices_S64x24x90_o0_12_0_S64x1x90 : S64x24x90.Slices ![0, 12, 0] S64x1x90
  slices_S40x24x90_o0_12_0_S40x1x90 : S40x24x90.Slices ![0, 12, 0] S40x1x90
  slices_S64x24x90_o0_13_0_S64x1x90 : S64x24x90.Slices ![0, 13, 0] S64x1x90
  slices_S40x24x90_o0_13_0_S40x1x90 : S40x24x90.Slices ![0, 13, 0] S40x1x90
  slices_S64x24x90_o0_14_0_S64x1x90 : S64x24x90.Slices ![0, 14, 0] S64x1x90
  slices_S40x24x90_o0_14_0_S40x1x90 : S40x24x90.Slices ![0, 14, 0] S40x1x90
  slices_S64x24x90_o0_15_0_S64x1x90 : S64x24x90.Slices ![0, 15, 0] S64x1x90
  slices_S40x24x90_o0_15_0_S40x1x90 : S40x24x90.Slices ![0, 15, 0] S40x1x90
  slices_S64x24x90_o0_16_0_S64x1x90 : S64x24x90.Slices ![0, 16, 0] S64x1x90
  slices_S40x24x90_o0_16_0_S40x1x90 : S40x24x90.Slices ![0, 16, 0] S40x1x90
  slices_S64x24x90_o0_17_0_S64x1x90 : S64x24x90.Slices ![0, 17, 0] S64x1x90
  slices_S40x24x90_o0_17_0_S40x1x90 : S40x24x90.Slices ![0, 17, 0] S40x1x90
  slices_S64x24x90_o0_18_0_S64x1x90 : S64x24x90.Slices ![0, 18, 0] S64x1x90
  slices_S40x24x90_o0_18_0_S40x1x90 : S40x24x90.Slices ![0, 18, 0] S40x1x90
  slices_S64x24x90_o0_19_0_S64x1x90 : S64x24x90.Slices ![0, 19, 0] S64x1x90
  slices_S40x24x90_o0_19_0_S40x1x90 : S40x24x90.Slices ![0, 19, 0] S40x1x90
  slices_S64x24x90_o0_20_0_S64x1x90 : S64x24x90.Slices ![0, 20, 0] S64x1x90
  slices_S40x24x90_o0_20_0_S40x1x90 : S40x24x90.Slices ![0, 20, 0] S40x1x90
  slices_S64x24x90_o0_21_0_S64x1x90 : S64x24x90.Slices ![0, 21, 0] S64x1x90
  slices_S40x24x90_o0_21_0_S40x1x90 : S40x24x90.Slices ![0, 21, 0] S40x1x90
  slices_S64x24x90_o0_22_0_S64x1x90 : S64x24x90.Slices ![0, 22, 0] S64x1x90
  slices_S40x24x90_o0_22_0_S40x1x90 : S40x24x90.Slices ![0, 22, 0] S40x1x90
  slices_S64x24x90_o0_23_0_S64x1x90 : S64x24x90.Slices ![0, 23, 0] S64x1x90
  slices_S40x24x90_o0_23_0_S40x1x90 : S40x24x90.Slices ![0, 23, 0] S40x1x90
  inb_S40_S40_0 : ∀ a, (![0] : Fin 1 → Nat) a + S40.size a ≤ S40.size a
  h_S40 : 0 < S40.numel
  shapeCasts_S40_S1x40 : S40.ShapeCasts S1x40
  broadcasts_S1x40_S64x40 : S1x40.Broadcasts S64x40
  shapeCasts_S1024x40_S1024x4x10 : S1024x40.ShapeCasts S1024x4x10
  reducesTo_S1024x4x10_S1024x4_d2 : S1024x4x10.ReducesTo [2] S1024x4
  h_S_ : 0 < S_.numel
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S1024x4x1_S1024x4x10_0_1_2 : S1024x4x1.BroadcastsInDim S1024x4x10 (![0, 1, 2] : Fin 3 → Fin S1024x4x10.rank)
  dot_S1536x180_S360x180_S1536x360_1_1_0_0_n_n_wf : DotDims.WF S1536x180 S360x180 S1536x360 [1] [1] [0] [0] [] []
  dot_S1536x90_S360x90_S1536x360_1_1_0_0_n_n_wf : DotDims.WF S1536x90 S360x90 S1536x360 [1] [1] [0] [0] [] []
  dot_S64x90_S40x90_S64x40_1_1_0_0_n_n_wf : DotDims.WF S64x90 S40x90 S64x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x24x180.size a ≤ S1024x240x180.size a
  hwx0_0 : ∀ i : grid0.Coords, EltTy.bits .bf16 = 32 ∨ (Rect.block (s := S1024x240x180) S64x24x180.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S360x180.size a ≤ S360x180.size a
  hwx0_1 : ∀ i : grid0.Coords, EltTy.bits .bf16 = 32 ∨ (Rect.block (s := S360x180) S360x180.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360.size a ≤ S360.size a
  hwx0_2 : ∀ i : grid0.Coords, EltTy.bits .f32 = 32 ∨ (Rect.block (s := S360) S360.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S360x90.size a ≤ S360x90.size a
  hwx0_3 : ∀ i : grid0.Coords, EltTy.bits .bf16 = 32 ∨ (Rect.block (s := S360x90) S360x90.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S360.size a ≤ S360.size a
  hwx0_4 : ∀ i : grid0.Coords, EltTy.bits .f32 = 32 ∨ (Rect.block (s := S360) S360.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S40x24x90.size a ≤ S40x240x90.size a
  hwx0_5 : ∀ i : grid0.Coords, EltTy.bits .bf16 = 32 ∨ (Rect.block (s := S40x240x90) S40x24x90.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40.size a ≤ S40.size a
  hwx0_6 : ∀ i : grid0.Coords, EltTy.bits .f32 = 32 ∨ (Rect.block (s := S40) S40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x40.size a ≤ S1024x40.size a
  hwx0_7 : ∀ i : grid0.Coords, EltTy.bits .f32 = 32 ∨ (Rect.block (s := S1024x40) S64x40.size (cc0_transform_7 i) (hinb0_7 i)).WholeWords (EltTy.packing .f32)

variable [Facts₀]

def dot_S1536x180_S360x180_S1536x360_1_1_0_0_n_n : DotDims S1536x180 S360x180 S1536x360 where
  lhsContracting := [1]
  rhsContracting := [1]
  lhsNonContracting := [0]
  rhsNonContracting := [0]
  lhsBatch := []
  rhsBatch := []
  wf := dot_S1536x180_S360x180_S1536x360_1_1_0_0_n_n_wf
def dot_S1536x90_S360x90_S1536x360_1_1_0_0_n_n : DotDims S1536x90 S360x90 S1536x360 where
  lhsContracting := [1]
  rhsContracting := [1]
  lhsNonContracting := [0]
  rhsNonContracting := [0]
  lhsBatch := []
  rhsBatch := []
  wf := dot_S1536x90_S360x90_S1536x360_1_1_0_0_n_n_wf
def dot_S64x90_S40x90_S64x40_1_1_0_0_n_n : DotDims S64x90 S40x90 S64x40 where
  lhsContracting := [1]
  rhsContracting := [1]
  lhsNonContracting := [0]
  rhsNonContracting := [0]
  lhsBatch := []
  rhsBatch := []
  wf := dot_S64x90_S40x90_S64x40_1_1_0_0_n_n_wf

abbrev win0_0 : Pipeline.Window sig grid0 :=
  Pipeline.Window.ofSpec (Memref.whole main_v2) S64x24x180.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S360x180.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S360.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S360x90.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S360.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S40x24x90.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x3x60x240 : Shape := ⟨4, ![1024, 3, 60, 240]⟩
abbrev S360x180 : Shape := ⟨2, ![360, 180]⟩
abbrev S360 : Shape := ⟨1, ![360]⟩
abbrev S360x90 : Shape := ⟨2, ![360, 90]⟩
abbrev S40x21600 : Shape := ⟨2, ![40, 21600]⟩
abbrev S40 : Shape := ⟨1, ![40]⟩
abbrev S1024x240x3x60 : Shape := ⟨4, ![1024, 240, 3, 60]⟩
abbrev S1024x240x180 : Shape := ⟨3, ![1024, 240, 180]⟩
abbrev S1024x240x360 : Shape := ⟨3, ![1024, 240, 360]⟩
abbrev S1x1x360 : Shape := ⟨3, ![1, 1, 360]⟩
abbrev S1024x240x90 : Shape := ⟨3, ![1024, 240, 90]⟩
abbrev S_ : Shape := ⟨0, ![]⟩
abbrev S1024x21600 : Shape := ⟨2, ![1024, 21600]⟩
abbrev S21600x40 : Shape := ⟨2, ![21600, 40]⟩
abbrev S1024x40 : Shape := ⟨2, ![1024, 40]⟩
abbrev S1x40 : Shape := ⟨2, ![1, 40]⟩
abbrev S1024x4x10 : Shape := ⟨3, ![1024, 4, 10]⟩
abbrev S1024x4 : Shape := ⟨2, ![1024, 4]⟩
abbrev S1024x4x1 : Shape := ⟨3, ![1024, 4, 1]⟩

abbrev nBuf : Space → Nat
  | .hbm => 102
  | .vmem => 0
  | .smem => 0
  | _ => 0

abbrev bufTy : (tb : Table) → Fin (tcTables nBuf tb) → BufTy
  | .hbm, ⟨0, _⟩ => ⟨S1024x3x60x240, .f32⟩
  | .hbm, ⟨1, _⟩ => ⟨S360x180, .f32⟩
  | .hbm, ⟨2, _⟩ => ⟨S360, .f32⟩
  | .hbm, ⟨3, _⟩ => ⟨S360, .f32⟩
  | .hbm, ⟨4, _⟩ => ⟨S360x90, .f32⟩
  | .hbm, ⟨5, _⟩ => ⟨S360, .f32⟩
  | .hbm, ⟨6, _⟩ => ⟨S360, .f32⟩
  | .hbm, ⟨7, _⟩ => ⟨S40x21600, .f32⟩
  | .hbm, ⟨8, _⟩ => ⟨S40, .f32⟩
  | .hbm, ⟨9, _⟩ => ⟨S1024x240x3x60, .f32⟩
  | .hbm, ⟨10, _⟩ => ⟨S1024x240x180, .f32⟩
  | .hbm, ⟨11, _⟩ => ⟨S1024x240x360, .f32⟩
  | .hbm, ⟨12, _⟩ => ⟨S1x1x360, .f32⟩
  | .hbm, ⟨13, _⟩ => ⟨S1024x240x360, .f32⟩
  | .hbm, ⟨14, _⟩ => ⟨S1024x240x360, .f32⟩
  | .hbm, ⟨15, _⟩ => ⟨S1x1x360, .f32⟩
  | .hbm, ⟨16, _⟩ => ⟨S1024x240x360, .f32⟩
  | .hbm, ⟨17, _⟩ => ⟨S1024x240x360, .f32⟩
  | .hbm, ⟨18, _⟩ => ⟨S1024x240x90, .f32⟩
  | .hbm, ⟨19, _⟩ => ⟨S1024x240x90, .f32⟩
  | .hbm, ⟨20, _⟩ => ⟨S1024x240x90, .f32⟩
  | .hbm, ⟨21, _⟩ => ⟨S1024x240x90, .f32⟩
  | .hbm, ⟨22, _⟩ => ⟨S1024x240x90, .f32⟩
  | .hbm, ⟨23, _⟩ => ⟨S1024x240x90, .f32⟩
  | .hbm, ⟨24, _⟩ => ⟨S_, .f32⟩
  | .hbm, ⟨25, _⟩ => ⟨S1024x240x90, .f32⟩
  | .hbm, ⟨26, _⟩ => ⟨S1024x240x90, .f32⟩
  | .hbm, ⟨27, _⟩ => ⟨S_, .f32⟩
  | .hbm, ⟨28, _⟩ => ⟨S1024x240x90, .f32⟩
  | .hbm, ⟨29, _⟩ => ⟨S1024x240x90, .f32⟩
  | .hbm, ⟨30, _⟩ => ⟨S1024x240x90, .f32⟩
  | .hbm, ⟨31, _⟩ => ⟨S1024x240x90, .f32⟩
  | .hbm, ⟨32, _⟩ => ⟨S1024x240x90, .f32⟩
  | .hbm, ⟨33, _⟩ => ⟨S1024x240x90, .f32⟩
  | .hbm, ⟨34, _⟩ => ⟨S_, .f32⟩
  | .hbm, ⟨35, _⟩ => ⟨S1024x240x90, .f32⟩
  | .hbm, ⟨36, _⟩ => ⟨S1024x240x90, .f32⟩
  | .hbm, ⟨37, _⟩ => ⟨S_, .f32⟩
  | .hbm, ⟨38, _⟩ => ⟨S1024x240x90, .f32⟩
  | .hbm, ⟨39, _⟩ => ⟨S1024x240x90, .f32⟩
  | .hbm, ⟨40, _⟩ => ⟨S1024x240x90, .f32⟩
  | .hbm, ⟨41, _⟩ => ⟨S1024x240x90, .f32⟩
  | .hbm, ⟨42, _⟩ => ⟨S1024x240x90, .f32⟩
  | .hbm, ⟨43, _⟩ => ⟨S1024x240x90, .f32⟩
  | .hbm, ⟨44, _⟩ => ⟨S_, .f32⟩
  | .hbm, ⟨45, _⟩ => ⟨S1024x240x90, .f32⟩
  | .hbm, ⟨46, _⟩ => ⟨S1024x240x90, .f32⟩
  | .hbm, ⟨47, _⟩ => ⟨S_, .f32⟩
  | .hbm, ⟨48, _⟩ => ⟨S1024x240x90, .f32⟩
  | .hbm, ⟨49, _⟩ => ⟨S1024x240x90, .f32⟩
  | .hbm, ⟨50, _⟩ => ⟨S1024x240x360, .f32⟩
  | .hbm, ⟨51, _⟩ => ⟨S1x1x360, .f32⟩
  | .hbm, ⟨52, _⟩ => ⟨S1024x240x360, .f32⟩
  | .hbm, ⟨53, _⟩ => ⟨S1024x240x360, .f32⟩
  | .hbm, ⟨54, _⟩ => ⟨S1x1x360, .f32⟩
  | .hbm, ⟨55, _⟩ => ⟨S1024x240x360, .f32⟩
  | .hbm, ⟨56, _⟩ => ⟨S1024x240x360, .f32⟩
  | .hbm, ⟨57, _⟩ => ⟨S1024x240x90, .f32⟩
  | .hbm, ⟨58, _⟩ => ⟨S1024x240x90, .f32⟩
  | .hbm, ⟨59, _⟩ => ⟨S1024x240x90, .f32⟩
  | .hbm, ⟨60, _⟩ => ⟨S1024x240x90, .f32⟩
  | .hbm, ⟨61, _⟩ => ⟨S1024x240x90, .f32⟩
  | .hbm, ⟨62, _⟩ => ⟨S1024x240x90, .f32⟩
  | .hbm, ⟨63, _⟩ => ⟨S_, .f32⟩
  | .hbm, ⟨64, _⟩ => ⟨S1024x240x90, .f32⟩
  | .hbm, ⟨65, _⟩ => ⟨S1024x240x90, .f32⟩
  | .hbm, ⟨66, _⟩ => ⟨S_, .f32⟩
  | .hbm, ⟨67, _⟩ => ⟨S1024x240x90, .f32⟩
  | .hbm, ⟨68, _⟩ => ⟨S1024x240x90, .f32⟩
  | .hbm, ⟨69, _⟩ => ⟨S1024x240x90, .f32⟩
  | .hbm, ⟨70, _⟩ => ⟨S1024x240x90, .f32⟩
  | .hbm, ⟨71, _⟩ => ⟨S1024x240x90, .f32⟩
  | .hbm, ⟨72, _⟩ => ⟨S1024x240x90, .f32⟩
  | .hbm, ⟨73, _⟩ => ⟨S_, .f32⟩
  | .hbm, ⟨74, _⟩ => ⟨S1024x240x90, .f32⟩
  | .hbm, ⟨75, _⟩ => ⟨S1024x240x90, .f32⟩
  | .hbm, ⟨76, _⟩ => ⟨S_, .f32⟩
  | .hbm, ⟨77, _⟩ => ⟨S1024x240x90, .f32⟩
  | .hbm, ⟨78, _⟩ => ⟨S1024x240x90, .f32⟩
  | .hbm, ⟨79, _⟩ => ⟨S1024x240x90, .f32⟩
  | .hbm, ⟨80, _⟩ => ⟨S1024x240x90, .f32⟩
  | .hbm, ⟨81, _⟩ => ⟨S1024x21600, .f32⟩
  | .hbm, ⟨82, _⟩ => ⟨S21600x40, .f32⟩
  | .hbm, ⟨83, _⟩ => ⟨S1024x40, .f32⟩
  | .hbm, ⟨84, _⟩ => ⟨S1x40, .f32⟩
  | .hbm, ⟨85, _⟩ => ⟨S1024x40, .f32⟩
  | .hbm, ⟨86, _⟩ => ⟨S1024x40, .f32⟩
  | .hbm, ⟨87, _⟩ => ⟨S1024x4x10, .f32⟩
  | .hbm, ⟨88, _⟩ => ⟨S_, .f32⟩
  | .hbm, ⟨89, _⟩ => ⟨S1024x4, .f32⟩
  | .hbm, ⟨90, _⟩ => ⟨S_, .f32⟩
  | .hbm, ⟨91, _⟩ => ⟨S1024x4, .f32⟩
  | .hbm, ⟨92, _⟩ => ⟨S1024x4, .f32⟩
  | .hbm, ⟨93, _⟩ => ⟨S1024x4x1, .f32⟩
  | .hbm, ⟨94, _⟩ => ⟨S1024x4x10, .f32⟩
  | .hbm, ⟨95, _⟩ => ⟨S1024x4x10, .f32⟩
  | .hbm, ⟨96, _⟩ => ⟨S1024x4x10, .f32⟩
  | .hbm, ⟨97, _⟩ => ⟨S_, .f32⟩
  | .hbm, ⟨98, _⟩ => ⟨S1024x4, .f32⟩
  | .hbm, ⟨99, _⟩ => ⟨S1024x4x1, .f32⟩
  | .hbm, ⟨100, _⟩ => ⟨S1024x4x10, .f32⟩
  | .hbm, ⟨101, _⟩ => ⟨S1024x4x10, .f32⟩
  | _, _ => ⟨S1024x3x60x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_11 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]

class Facts₀ : Prop where
  transposes_S1024x3x60x240_S1024x240x3x60_0_3_1_2 : S1024x3x60x240.Transposes [0, 3, 1, 2] S1024x240x3x60
  shapeCasts_S1024x240x3x60_S1024x240x180 : S1024x240x3x60.ShapeCasts S1024x240x180
  bcast_S360_S1x1x360_2 : S360.BroadcastsInDim S1x1x360 (![2] : Fin 1 → Fin S1x1x360.rank)
  bcast_S1x1x360_S1024x240x360_0_1_2 : S1x1x360.BroadcastsInDim S1024x240x360 (![0, 1, 2] : Fin 3 → Fin S1024x240x360.rank)
  slices_S1024x240x360_S1024x240x90_0_0_0 : S1024x240x360.Slices ![0, 0, 0] S1024x240x90
  slices_S1024x240x360_S1024x240x90_0_0_90 : S1024x240x360.Slices ![0, 0, 90] S1024x240x90
  slices_S1024x240x360_S1024x240x90_0_0_180 : S1024x240x360.Slices ![0, 0, 180] S1024x240x90
  slices_S1024x240x360_S1024x240x90_0_0_270 : S1024x240x360.Slices ![0, 0, 270] S1024x240x90
  bcast_S_S1024x240x90 : S_.BroadcastsInDim S1024x240x90 (![] : Fin 0 → Fin S1024x240x90.rank)
  shapeCasts_S1024x240x90_S1024x21600 : S1024x240x90.ShapeCasts S1024x21600
  transposes_S40x21600_S21600x40_1_0 : S40x21600.Transposes [1, 0] S21600x40
  bcast_S40_S1x40_1 : S40.BroadcastsInDim S1x40 (![1] : Fin 1 → Fin S1x40.rank)
  bcast_S1x40_S1024x40_0_1 : S1x40.BroadcastsInDim S1024x40 (![0, 1] : Fin 2 → Fin S1024x40.rank)
  shapeCasts_S1024x40_S1024x4x10 : S1024x40.ShapeCasts S1024x4x10
  reducesTo_S1024x4x10_S1024x4_d2 : S1024x4x10.ReducesTo [2] S1024x4
  h_S_ : 0 < S_.numel
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S1024x4x1_S1024x4x10_0_1_2 : S1024x4x1.BroadcastsInDim S1024x4x10 (![0, 1, 2] : Fin 3 → Fin S1024x4x10.rank)
  dot_S1024x240x180_S360x180_S1024x240x360_2_1_01_0_n_n_wf : DotDims.WF S1024x240x180 S360x180 S1024x240x360 [2] [1] [0, 1] [0] [] []
  dot_S1024x240x90_S360x90_S1024x240x360_2_1_01_0_n_n_wf : DotDims.WF S1024x240x90 S360x90 S1024x240x360 [2] [1] [0, 1] [0] [] []
  dot_S1024x21600_S21600x40_S1024x40_1_0_0_1_n_n_wf : DotDims.WF S1024x21600 S21600x40 S1024x40 [1] [0] [0] [1] [] []

variable [Facts₀]

def dot_S1024x240x180_S360x180_S1024x240x360_2_1_01_0_n_n : DotDims S1024x240x180 S360x180 S1024x240x360 where
  lhsContracting := [2]
  rhsContracting := [1]
  lhsNonContracting := [0, 1]
  rhsNonContracting := [0]
  lhsBatch := []
  rhsBatch := []
  wf := dot_S1024x240x180_S360x180_S1024x240x360_2_1_01_0_n_n_wf
def dot_S1024x240x90_S360x90_S1024x240x360_2_1_01_0_n_n : DotDims S1024x240x90 S360x90 S1024x240x360 where
  lhsContracting := [2]
  rhsContracting := [1]
  lhsNonContracting := [0, 1]
  rhsNonContracting := [0]
  lhsBatch := []
  rhsBatch := []
  wf := dot_S1024x240x90_S360x90_S1024x240x360_2_1_01_0_n_n_wf
def dot_S1024x21600_S21600x40_S1024x40_1_0_0_1_n_n : DotDims S1024x21600 S21600x40 S1024x40 where
  lhsContracting := [1]
  rhsContracting := [0]
  lhsNonContracting := [0]
  rhsNonContracting := [1]
  lhsBatch := []
  rhsBatch := []
  wf := dot_S1024x21600_S21600x40_S1024x40_1_0_0_1_n_n_wf

class Facts : Prop extends Facts₀ where

variable [Facts]
-- ==== Proof.Pieces.lean ====
/-
  What one grid point leaves behind, as values.

  The body of the kernel at a grid point computes, from the point's six input blocks, one [64,40] array: the
  point's share of the final projection (`partialOf`).  It then adds that share to the accumulator it carries
  between points; at the first time tile of a batch tile the accumulator is first reset to zero, and at the
  last time tile the accumulator plus the output bias is stored to the output block.  The three control cases
  therefore leave:
      first tile  : accumulator = 0 + share
      middle tile : accumulator = previous + share
      last tile   : accumulator = previous + share,  output block = (previous + share) + bias.
  Each statement reads the stores the run of that case found back as one array.
-/
import proofs.«106832_j8718783611481_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A grid point's share of the projection, from its input blocks: the decoder block (from the input, the two weight
    blocks and the two summed biases) against the output-weight block, over the point's 24 time steps. -/
def partialOf (x0 : Vec F S64x24x180 .bf16) (x1 : Vec F S360x180 .bf16) (x2 : Vec F S360 .f32) (x3 : Vec F S360x90 .bf16)
    (x4 : Vec F S360 .f32) (x5 : Vec F S40x24x90 .bf16) : FVec F S64x40 .f32 :=
  k0_pay13 (k0_pay7 (k0_pay5 x0 x1 x2 x3 x4) (k0_pay6 x0 x1 x2 x3 x4)) (k0_pay8 x5)
    (k0_pay11 (k0_pay7 (k0_pay5 x0 x1 x2 x3 x4) (k0_pay6 x0 x1 x2 x3 x4)) (k0_pay8 x5)
      (k0_pay9 (k0_pay5 x0 x1 x2 x3 x4) (k0_pay6 x0 x1 x2 x3 x4) x5) (k0_pay10 (k0_pay5 x0 x1 x2 x3 x4) (k0_pay6 x0 x1 x2 x3 x4)))
    (k0_pay12 (k0_pay7 (k0_pay5 x0 x1 x2 x3 x4) (k0_pay6 x0 x1 x2 x3 x4)) (k0_pay8 x5))

variable (c : Dev nD) (i : grid0.Coords)
  (a2 : Memref sig .tc .vmem S64x24x180 .bf16) (h2 : a2.IsWhole) (a3 : Memref sig .tc .vmem S360x180 .bf16) (h3 : a3.IsWhole)
  (a4 : Memref sig .tc .vmem S360 .f32) (h4 : a4.IsWhole) (a5 : Memref sig .tc .vmem S360x90 .bf16) (h5 : a5.IsWhole)
  (a6 : Memref sig .tc .vmem S360 .f32) (h6 : a6.IsWhole) (a7 : Memref sig .tc .vmem S40x24x90 .bf16) (h7 : a7.IsWhole)
  (a8 : Memref sig .tc .vmem S40 .f32) (h8 : a8.IsWhole) (a9 : Memref sig .tc .vmem S64x40 .f32) (h9 : a9.IsWhole)
  (a10 : Memref sig .tc .vmem S64x40 .f32) (h10 : a10.IsWhole)
  (x0 : Vec F S64x24x180 .bf16) (x1 : Vec F S360x180 .bf16) (x2 : Vec F S360 .f32) (x3 : Vec F S360x90 .bf16)
  (x4 : Vec F S360 .f32) (x5 : Vec F S40x24x90 .bf16) (x6 : Vec F S40 .f32) (xs : Vec F S64x40 .f32)

/-- First time tile: the accumulator is reset, then the share is added to the zero read back. -/
theorem sout_A (hc0 : cond0_0 i) (hc1 : ¬cond0_1 i) :
    sout0_A_0 c i a2 h2 a3 h3 a4 h4 a5 h5 a6 h6 a7 h7 a8 h8 a9 h9 a10 h10 hc0 hc1 x0 x1 x2 x3 x4 x5 x6 = k0_pay1 (partialOf x0 x1 x2 x3 x4 x5) k0_pay3 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S64x40) hz2]
  simp only [View.readAt_eq_ld, h2.read_unread, h3.read_unread, h4.read_unread, h5.read_unread, h6.read_unread, h7.read_unread,
    h8.read_unread, h10.read_unread, View.ld_unit_zero (S := S64x24x180) hz3, View.ld_unit_zero (S := S360x180) hz2,
    View.ld_unit_zero (S := S360) hz1, View.ld_unit_zero (S := S360x90) hz2, View.ld_unit_zero (S := S40x24x90) hz3,
    View.ld_unit_zero (S := S40) hz1, View.ld_unit_zero (S := S64x40) hz2, View.readCov_unit_zero (S := S64x40) _ hz2, partialOf]

/-- A middle time tile: the share is added to what the point before left. -/
theorem sout_B (hc0 : ¬cond0_0 i) (hc1 : ¬cond0_1 i) :
    sout0_B_0 c i a2 h2 a3 h3 a4 h4 a5 h5 a6 h6 a7 h7 a8 h8 a9 h9 a10 h10 hc0 hc1 x0 x1 x2 x3 x4 x5 x6 xs = k0_pay1 (partialOf x0 x1 x2 x3 x4 x5) xs := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs)]
  unfold kernelRun0_B
  dsimp only
  sl_unfold_words
  rw [View.canon_unit_zero hz2]
  simp only [View.readAt_eq_ld, h2.read_unread, h3.read_unread, h4.read_unread, h5.read_unread, h6.read_unread, h7.read_unread,
    h8.read_unread, h10.read_unread, View.ld_unit_zero (S := S64x24x180) hz3, View.ld_unit_zero (S := S360x180) hz2,
    View.ld_unit_zero (S := S360) hz1, View.ld_unit_zero (S := S360x90) hz2, View.ld_unit_zero (S := S40x24x90) hz3,
    View.ld_unit_zero (S := S40) hz1, View.ld_unit_zero (S := S64x40) hz2, View.readCov_unit_zero (S := S64x40) _ hz2, partialOf]

/-- The last time tile: the accumulator as in a middle tile, -/
theorem sout_C (hc0 : ¬cond0_0 i) (hc1 : cond0_1 i) :
    sout0_C_0 c i a2 h2 a3 h3 a4 h4 a5 h5 a6 h6 a7 h7 a8 h8 a9 h9 a10 h10 hc0 hc1 x0 x1 x2 x3 x4 x5 x6 xs = k0_pay1 (partialOf x0 x1 x2 x3 x4 x5) xs := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs)]
  unfold kernelRun0_C
  dsimp only
  sl_unfold_words
  rw [View.canon_unit_zero hz2]
  simp only [View.readAt_eq_ld, h2.read_unread, h3.read_unread, h4.read_unread, h5.read_unread, h6.read_unread, h7.read_unread,
    h8.read_unread, h10.read_unread, View.ld_unit_zero (S := S64x24x180) hz3, View.ld_unit_zero (S := S360x180) hz2,
    View.ld_unit_zero (S := S360) hz1, View.ld_unit_zero (S := S360x90) hz2, View.ld_unit_zero (S := S40x24x90) hz3,
    View.ld_unit_zero (S := S40) hz1, View.ld_unit_zero (S := S64x40) hz2, View.readCov_unit_zero (S := S64x40) _ hz2, partialOf]

/-- and the output block: that accumulator, read back, plus the bias. -/
theorem out_C (hc0 : ¬cond0_0 i) (hc1 : cond0_1 i) :
    out0_C_7 c i a2 h2 a3 h3 a4 h4 a5 h5 a6 h6 a7 h7 a8 h8 a9 h9 a10 h10 hc0 hc1 x0 x1 x2 x3 x4 x5 x6 xs = k0_pay2 (k0_pay1 (partialOf x0 x1 x2 x3 x4 x5) xs) x6 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs)]
  unfold kernelRun0_C
  dsimp only
  sl_unfold_words
  rw [View.canon_unit_zero hz2]
  simp only [View.readAt_eq_ld, h2.read_unread, h3.read_unread, h4.read_unread, h5.read_unread, h6.read_unread, h7.read_unread,
    h8.read_unread, h10.read_unread, View.ld_unit_zero (S := S64x24x180) hz3, View.ld_unit_zero (S := S360x180) hz2,
    View.ld_unit_zero (S := S360) hz1, View.ld_unit_zero (S := S360x90) hz2, View.ld_unit_zero (S := S40x24x90) hz3,
    View.ld_unit_zero (S := S40) hz1, View.ld_unit_zero (S := S64x40) hz2, View.readCov_unit_zero (S := S64x40) _ hz2, partialOf]

end Cert.KernelIdeal.Pieces

end
-- ==== Proof.Blocks.lean ====
/-
  The blocks a grid point sees, as entries of the arrays the region finds.

  The grid is 16 batch tiles by 10 time tiles; point t is batch tile t / 10, time tile t % 10.  The input block
  of the point is rows 64·(t/10) … +63 and time steps 24·(t%10) … +23 of the re-laid input; the output-weight
  block is the same time steps of the [40,240,90] weights; the two weight matrices, the two summed biases and
  the output bias are whole arrays at every point; the output block is rows 64·(t/10) … +63 of the logits.
-/
import proofs.«106832_j8718783611481_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The printed index maps at point t: batch tile t / 10 and time tile t % 10 where a window moves, 0 where it does not. -/
theorem idx_facts : ∀ t : Fin cfg0.N,
    win0_0.index t (0 : Fin 3) = t.val / 10 ∧ win0_0.index t (1 : Fin 3) = t.val % 10 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = t.val % 10 ∧ win0_5.index t (2 : Fin 3) = 0
    ∧ win0_6.index t (0 : Fin 1) = 0
    ∧ win0_7.index t (0 : Fin 2) = t.val / 10 ∧ win0_7.index t (1 : Fin 2) = 0 :=
  (by decide +kernel : ∀ t : Fin grid0.N, _)

theorem N160 : cfg0.N = 160 := N_0

/-- Global batch row of row p of the point's block. -/
def rowOf (t : Fin cfg0.N) (p : Fin 64) : Fin 1024 :=
  ⟨64 * (t.val / 10) + p.val, by have := t.isLt; have := N160; have := p.isLt; omega⟩

/-- Global time step of step s of the point's block. -/
def stepOf (t : Fin cfg0.N) (s : Fin 24) : Fin 240 :=
  ⟨24 * (t.val % 10) + s.val, by have := s.isLt; omega⟩

/-- The input block. -/
theorem blk0 (c : Dev nD) (t : Fin cfg0.N) (p : Fin 64) (s : Fin 24) (f : Fin 180) :
    (iblk m c 0 t : Vec Ideal S64x24x180 .bf16) (ix3 p s f) = V m c main_v2 (ix3 (rowOf t p) (stepOf t s) f) := by
  obtain ⟨e0, e1, e2, -⟩ := idx_facts t
  unfold iblk
  rw [View.read_apply]
  show V m c main_v2 _ = V m c main_v2 _
  congr 1
  funext a
  apply Fin.ext
  match a with
  | ⟨0, _⟩ => show win0_0.index t (0 : Fin 3) * 64 + 1 * p.val = 64 * (t.val / 10) + p.val; rw [e0]; omega
  | ⟨1, _⟩ => show win0_0.index t (1 : Fin 3) * 24 + 1 * s.val = 24 * (t.val % 10) + s.val; rw [e1]; omega
  | ⟨2, _⟩ => show win0_0.index t (2 : Fin 3) * 180 + 1 * f.val = f.val; rw [e2]; omega

/-- The encoder weights, whole. -/
theorem blk1 (c : Dev nD) (t : Fin cfg0.N) (g : Fin 360) (f : Fin 180) :
    (iblk m c 1 t : Vec Ideal S360x180 .bf16) (ix2 g f) = V m c main_v3 (ix2 g f) := by
  obtain ⟨-, -, -, e0, e1, -⟩ := idx_facts t
  unfold iblk
  rw [View.read_apply]
  show V m c main_v3 _ = V m c main_v3 _
  congr 1
  funext a
  apply Fin.ext
  match a with
  | ⟨0, _⟩ => show win0_1.index t (0 : Fin 2) * 360 + 1 * g.val = g.val; rw [e0]; omega
  | ⟨1, _⟩ => show win0_1.index t (1 : Fin 2) * 180 + 1 * f.val = f.val; rw [e1]; omega

/-- The encoder bias (the two biases summed by the host), whole. -/
theorem blk2 (c : Dev nD) (t : Fin cfg0.N) (g : Fin 360) :
    (iblk m c 2 t : Vec Ideal S360 .f32) (ix1 g) = V m c main_v4 (ix1 g) := by
  obtain ⟨-, -, -, -, -, e0, -⟩ := idx_facts t
  unfold iblk
  rw [View.read_apply]
  show V m c main_v4 _ = V m c main_v4 _
  congr 1
  funext a
  apply Fin.ext
  match a with
  | ⟨0, _⟩ => show win0_2.index t (0 : Fin 1) * 360 + 1 * g.val = g.val; rw [e0]; omega

/-- The decoder weights, whole. -/
theorem blk3 (c : Dev nD) (t : Fin cfg0.N) (g : Fin 360) (k : Fin 90) :
    (iblk m c 3 t : Vec Ideal S360x90 .bf16) (ix2 g k) = V m c main_v5 (ix2 g k) := by
  obtain ⟨-, -, -, -, -, -, e0, e1, -⟩ := idx_facts t
  unfold iblk
  rw [View.read_apply]
  show V m c main_v5 _ = V m c main_v5 _
  congr 1
  funext a
  apply Fin.ext
  match a with
  | ⟨0, _⟩ => show win0_3.index t (0 : Fin 2) * 360 + 1 * g.val = g.val; rw [e0]; omega
  | ⟨1, _⟩ => show win0_3.index t (1 : Fin 2) * 90 + 1 * k.val = k.val; rw [e1]; omega

/-- The decoder bias, whole. -/
theorem blk4 (c : Dev nD) (t : Fin cfg0.N) (g : Fin 360) :
    (iblk m c 4 t : Vec Ideal S360 .f32) (ix1 g) = V m c main_v6 (ix1 g) := by
  obtain ⟨-, -, -, -, -, -, -, -, e0, -⟩ := idx_facts t
  unfold iblk
  rw [View.read_apply]
  show V m c main_v6 _ = V m c main_v6 _
  congr 1
  funext a
  apply Fin.ext
  match a with
  | ⟨0, _⟩ => show win0_4.index t (0 : Fin 1) * 360 + 1 * g.val = g.val; rw [e0]; omega

/-- The output-weight block: the point's 24 time steps. -/
theorem blk5 (c : Dev nD) (t : Fin cfg0.N) (j : Fin 40) (s : Fin 24) (h : Fin 90) :
    (iblk m c 5 t : Vec Ideal S40x24x90 .bf16) (ix3 j s h) = V m c main_v8 (ix3 j (stepOf t s) h) := by
  obtain ⟨-, -, -, -, -, -, -, -, -, e0, e1, e2, -⟩ := idx_facts t
  unfold iblk
  rw [View.read_apply]
  show V m c main_v8 _ = V m c main_v8 _
  congr 1
  funext a
  apply Fin.ext
  match a with
  | ⟨0, _⟩ => show win0_5.index t (0 : Fin 3) * 40 + 1 * j.val = j.val; rw [e0]; omega
  | ⟨1, _⟩ => show win0_5.index t (1 : Fin 3) * 24 + 1 * s.val = 24 * (t.val % 10) + s.val; rw [e1]; omega
  | ⟨2, _⟩ => show win0_5.index t (2 : Fin 3) * 90 + 1 * h.val = h.val; rw [e2]; omega

/-- The output bias, whole. -/
theorem blk6 (c : Dev nD) (t : Fin cfg0.N) (j : Fin 40) :
    (iblk m c 6 t : Vec Ideal S40 .f32) (ix1 j) = V m c main_arg8 (ix1 j) := by
  obtain ⟨-, -, -, -, -, -, -, -, -, -, -, -, e0, -⟩ := idx_facts t
  unfold iblk
  rw [View.read_apply]
  show V m c main_arg8 _ = V m c main_arg8 _
  congr 1
  funext a
  apply Fin.ext
  match a with
  | ⟨0, _⟩ => show win0_6.index t (0 : Fin 1) * 40 + 1 * j.val = j.val; rw [e0]; omega

end Cert.KernelIdeal.Blocks

end
-- ==== Proof.HostArrays.lean ====
/-
  The arrays the kernel region finds, as functions of the program's arguments, over the extended reals.

  Before the call the host re-lays the input (a transpose then a reshape), adds each layer's two biases, views the
  output weights [40, 21600] as [40, 240, 90], and rounds four arrays to bf16; a change of float format is the
  identity here.  So the region's input is the re-laid input itself, its weights are the arguments, its two
  biases are sums of two arguments, and entry (j, t, h) of its output weights is entry (j, 90·t + h) of the argument.
-/
import proofs.«106832_j8718783611481_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.HostArrays

open Cert.KernelIdeal Cert.KernelIdeal.Gen

variable (m : (ℓ : Loc nD τ sig) → Buf (Elt Ideal) ℓ)

/-- The arguments, at their literal types. -/
abbrev arg1 (c : Dev nD) : FVec Ideal S360x180 .f32 := m ((c : Thread nD τ).loc main_arg1)
abbrev arg2 (c : Dev nD) : FVec Ideal S360 .f32 := m ((c : Thread nD τ).loc main_arg2)
abbrev arg3 (c : Dev nD) : FVec Ideal S360 .f32 := m ((c : Thread nD τ).loc main_arg3)
abbrev arg4 (c : Dev nD) : FVec Ideal S360x90 .f32 := m ((c : Thread nD τ).loc main_arg4)
abbrev arg5 (c : Dev nD) : FVec Ideal S360 .f32 := m ((c : Thread nD τ).loc main_arg5)
abbrev arg6 (c : Dev nD) : FVec Ideal S360 .f32 := m ((c : Thread nD τ).loc main_arg6)
abbrev arg7 (c : Dev nD) : FVec Ideal S40x21600 .f32 := m ((c : Thread nD τ).loc main_arg7)
abbrev arg8 (c : Dev nD) : FVec Ideal S40 .f32 := m ((c : Thread nD τ).loc main_arg8)

/-- The input re-laid to [1024, 240, 180]: the host's transpose and reshape of the argument. -/
abbrev relaid (c : Dev nD) : FVec Ideal S1024x240x180 .f32 :=
  shapeCast S1024x240x180 (transpose S1024x240x3x60 [0, 3, 1, 2] (m ((c : Thread nD τ).loc main_arg0)) transposes_S1024x3x60x240_S1024x240x3x60_0_3_1_2)
    shapeCasts_S1024x240x3x60_S1024x240x180

theorem v2_eq (c : Dev nD) (i : S1024x240x180.Idx) : V m c main_v2 i = relaid m c i := by
  have e : V m c main_v2 = truncf .bf16 (relaid m c) bitsLt_bf16_f32 := by
    show StableHlo.after hostOps0 _ (Proc.devRef .tc main_v2) = _
    after_results
    rfl
  rw [e]
  rfl

theorem v3_eq (c : Dev nD) (i : S360x180.Idx) : V m c main_v3 i = arg1 m c i := by
  have e : V m c main_v3 = truncf .bf16 (arg1 m c) bitsLt_bf16_f32 := by
    show StableHlo.after hostOps0 _ (Proc.devRef .tc main_v3) = _
    after_results
  rw [e]
  rfl

theorem v4_eq (c : Dev nD) (i : S360.Idx) : V m c main_v4 i = arg2 m c i + arg3 m c i := by
  have e : V m c main_v4 = addf (arg2 m c) (arg3 m c) := by
    show StableHlo.after hostOps0 _ (Proc.devRef .tc main_v4) = _
    after_results
  rw [e]
  rfl

theorem v5_eq (c : Dev nD) (i : S360x90.Idx) : V m c main_v5 i = arg4 m c i := by
  have e : V m c main_v5 = truncf .bf16 (arg4 m c) bitsLt_bf16_f32 := by
    show StableHlo.after hostOps0 _ (Proc.devRef .tc main_v5) = _
    after_results
  rw [e]
  rfl

theorem v6_eq (c : Dev nD) (i : S360.Idx) : V m c main_v6 i = arg5 m c i + arg6 m c i := by
  have e : V m c main_v6 = addf (arg5 m c) (arg6 m c) := by
    show StableHlo.after hostOps0 _ (Proc.devRef .tc main_v6) = _
    after_results
  rw [e]
  rfl

/-- The output weights viewed as [40, 240, 90]: entry (j, t, h) is the argument's entry (j, 90·t + h). -/
theorem v8_eq (c : Dev nD) (j : Fin 40) (t : Fin 240) (h : Fin 90) :
    V m c main_v8 (ix3 j t h)
      = arg7 m c (ix2 j (⟨t.val * 90 + h.val, by have := t.isLt; have := h.isLt; omega⟩ : Fin 21600)) := by
  have e : V m c main_v8 = truncf .bf16 (shapeCast S40x240x90 (arg7 m c) shapeCasts_S40x21600_S40x240x90) bitsLt_bf16_f32 := by
    show StableHlo.after hostOps0 _ (Proc.devRef .tc main_v8) = _
    after_results
    rfl
  rw [e]
  show shapeCast S40x240x90 (arg7 m c) shapeCasts_S40x21600_S40x240x90 (ix3 j t h) = _
  refine shapeCast_apply _ shapeCasts_S40x21600_S40x240x90 (ix3 j t h) _ ?_
  rw [Shape.rowMajor_val_two, Shape.rowMajor_val_three]
  have hj := j.isLt; have ht := t.isLt; have hh := h.isLt
  show j.val * 21600 + (t.val * 90 + h.val) = (j.val * 240 + t.val) * 90 + h.val
  omega

/-- The output bias is an argument the region reads as launched. -/
theorem a8_eq (c : Dev nD) (i : S40.Idx) : V m c main_arg8 i = arg8 m c i := by
  rw [V_main_arg8 m c]

end Cert.KernelIdeal.HostArrays

end
-- ==== Proof.Spec.lean ====
/-
  The function both programs compute, over the extended reals, written over plain index functions.

  One time step of one batch row is independent of every other: an input row x of 180 features goes
  through two LSTM cells started from the zero state.  With zero state the forget gate drops out, so a
  cell of pre-activations G (360 of them, gate order i, f, g, o in blocks of 90) yields, for h < 90,
      cell G h = σ(G(270+h)) · tanh( σ(G(h)) · tanh(G(180+h)) ).
  The encoder's hidden value passes through one more σ before it feeds the decoder.  The result row r
  has 40 logits: the decoder's hidden values of all 240 time steps, contracted with the output weights
  over (time, hidden), plus the output bias.  A softmax over groups of ten follows; it is the same
  host text in both programs and is never opened.

  Also here: a sum over Fin (m·n) split into a double sum, used to pass between a contraction over the
  flattened (time, hidden) axis, the (time, hidden) double sum, and the (time tile, step in tile) split.
-/
import Idealize.ShloMosaic.PureOps.Ideal
import Mathlib.Algebra.BigOperators.Fin
import Mathlib.Logic.Equiv.Fin.Basic

noncomputable section

namespace Lstm

open Idealize.ShloMosaic

/-- Pre-activation g of a layer: the input row against weight row g, plus the (already summed) bias. -/
def gate {K : ℕ} (x : Fin K → EReal) (W : Fin 360 → Fin K → EReal) (b : Fin 360 → EReal) (g : Fin 360) : EReal :=
  (∑ f : Fin K, x f * W g f) + b g

/-- Positions of the input, cell and output gates of hidden unit h among the 360 pre-activations. -/
def gi (h : Fin 90) : Fin 360 := ⟨h.val, by have := h.isLt; omega⟩
def gg (h : Fin 90) : Fin 360 := ⟨180 + h.val, by have := h.isLt; omega⟩
def go (h : Fin 90) : Fin 360 := ⟨270 + h.val, by have := h.isLt; omega⟩

/-- The zero-state LSTM cell: σ(o) · tanh(σ(i) · tanh(g)). -/
def cell (G : Fin 360 → EReal) (h : Fin 90) : EReal :=
  Ideal.logistic (G (go h)) * Ideal.tanh (Ideal.logistic (G (gi h)) * Ideal.tanh (G (gg h)))

/-- Encoder: the cell of the input row's pre-activations, through one more σ. -/
def enc (x : Fin 180 → EReal) (W1 : Fin 360 → Fin 180 → EReal) (bE : Fin 360 → EReal) (k : Fin 90) : EReal :=
  Ideal.logistic (cell (gate x W1 bE) k)

/-- Decoder: the cell of the encoder row's pre-activations. -/
def dec (x : Fin 180 → EReal) (W1 : Fin 360 → Fin 180 → EReal) (bE : Fin 360 → EReal)
    (W2 : Fin 360 → Fin 90 → EReal) (bD : Fin 360 → EReal) (h : Fin 90) : EReal :=
  cell (gate (enc x W1 bE) W2 bD) h

/-- Logit j of batch row r: the decoder's values over all (time, hidden) against the output weights, plus the bias. -/
def logits (xe : Fin 1024 → Fin 240 → Fin 180 → EReal) (W1 : Fin 360 → Fin 180 → EReal) (bE : Fin 360 → EReal)
    (W2 : Fin 360 → Fin 90 → EReal) (bD : Fin 360 → EReal) (Wo : Fin 40 → Fin 240 → Fin 90 → EReal)
    (bo : Fin 40 → EReal) (r : Fin 1024) (j : Fin 40) : EReal :=
  (∑ t : Fin 240, ∑ h : Fin 90, dec (xe r t) W1 bE W2 bD h * Wo j t h) + bo j

/-- A sum over Fin (m·n) is the double sum over (a, b) at position a·n + b. -/
theorem sum_fin_mul {M : Type} [AddCommMonoid M] (m n : ℕ) (F : Fin (m * n) → M) :
    ∑ k : Fin (m * n), F k
      = ∑ a : Fin m, ∑ b : Fin n, F ⟨a.val * n + b.val, by
          have ha := a.isLt; have hb := b.isLt
          calc a.val * n + b.val < a.val * n + n := by omega
            _ = (a.val + 1) * n := by ring
            _ ≤ m * n := Nat.mul_le_mul_right n ha⟩ := by
  rw [← finProdFinEquiv.sum_comp, Fintype.sum_prod_type]
  refine Finset.sum_congr rfl fun a _ => Finset.sum_congr rfl fun b _ => congrArg F (Fin.ext ?_)
  simp only [finProdFinEquiv_apply_val]
  ring

/-- The flattened (time, hidden) axis of length 21600 = 240 · 90. -/
theorem sum_fin_21600 {M : Type} [AddCommMonoid M] (F : Fin 21600 → M) :
    ∑ k : Fin 21600, F k
      = ∑ t : Fin 240, ∑ h : Fin 90, F ⟨t.val * 90 + h.val, by have := t.isLt; have := h.isLt; omega⟩ :=
  sum_fin_mul 240 90 F

/-- The 240 time steps as 10 tiles of 24. -/
theorem sum_fin_240 {M : Type} [AddCommMonoid M] (F : Fin 240 → M) :
    ∑ t : Fin 240, F t
      = ∑ T : Fin 10, ∑ s : Fin 24, F ⟨T.val * 24 + s.val, by have := T.isLt; have := s.isLt; omega⟩ :=
  sum_fin_mul 10 24 F

end Lstm

end
-- ==== Proof.KernelDec.lean ====
import proofs.«106832_j8718783611481_1_alg».proof.Proof.Gen.KernelIdeal.Skeleton
import proofs.«106832_j8718783611481_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Defs
import Mathlib.Algebra.BigOperators.Group.Finset.Basic

noncomputable section

open Idealize.ShloMosaic Idealize.ShloMosaic.ValueIdx

namespace Cert.KernelIdeal.Payload

open Cert.KernelIdeal Cert.KernelIdeal.Gen

/-- The zero-state cell read off any block of 360 pre-activations: entry (p, s, h) of
    σ(slice at 270) · tanh(σ(slice at 0) · tanh(slice at 180)) is the cell of row (p, s). -/
theorem cell_at (v : FVec Ideal S64x24x360 .f32) (p : Fin 64) (s : Fin 24) (h : Fin 90) :
    mulf (logistic (extractStridedSlice S64x24x90 ![0, 0, 270] v slices_S64x24x360_o0_0_270_S64x24x90))
        (tanh (mulf (logistic (extractStridedSlice S64x24x90 ![0, 0, 0] v slices_S64x24x360_o0_0_0_S64x24x90))
          (tanh (extractStridedSlice S64x24x90 ![0, 0, 180] v slices_S64x24x360_o0_0_180_S64x24x90)))) (ix3 p s h)
      = Lstm.cell (fun g => v (ix3 p s g)) h := by
  have e0 : extractStridedSlice S64x24x90 ![0, 0, 0] v slices_S64x24x360_o0_0_0_S64x24x90 (ix3 p s h)
      = v (ix3 p s (Lstm.gi h)) :=
    extractStridedSlice_apply ![0, 0, 0] v slices_S64x24x360_o0_0_0_S64x24x90 (ix3 p s h) (ix3 p s (Lstm.gi h))
      (fun a => match a with
        | ⟨0, _⟩ => by show p.val = 0 + p.val; omega
        | ⟨1, _⟩ => by show s.val = 0 + s.val; omega
        | ⟨2, _⟩ => by show h.val = 0 + h.val; omega)
  have e1 : extractStridedSlice S64x24x90 ![0, 0, 180] v slices_S64x24x360_o0_0_180_S64x24x90 (ix3 p s h)
      = v (ix3 p s (Lstm.gg h)) :=
    extractStridedSlice_apply ![0, 0, 180] v slices_S64x24x360_o0_0_180_S64x24x90 (ix3 p s h) (ix3 p s (Lstm.gg h))
      (fun a => match a with
        | ⟨0, _⟩ => by show p.val = 0 + p.val; omega
        | ⟨1, _⟩ => by show s.val = 0 + s.val; omega
        | ⟨2, _⟩ => by show 180 + h.val = 180 + h.val; rfl)
  have e2 : extractStridedSlice S64x24x90 ![0, 0, 270] v slices_S64x24x360_o0_0_270_S64x24x90 (ix3 p s h)
      = v (ix3 p s (Lstm.go h)) :=
    extractStridedSlice_apply ![0, 0, 270] v slices_S64x24x360_o0_0_270_S64x24x90 (ix3 p s h) (ix3 p s (Lstm.go h))
      (fun a => match a with
        | ⟨0, _⟩ => by show p.val = 0 + p.val; omega
        | ⟨1, _⟩ => by show s.val = 0 + s.val; omega
        | ⟨2, _⟩ => by show 270 + h.val = 270 + h.val; rfl)
  show Ideal.logistic (extractStridedSlice S64x24x90 ![0, 0, 270] v slices_S64x24x360_o0_0_270_S64x24x90 (ix3 p s h))
      * Ideal.tanh (Ideal.logistic (extractStridedSlice S64x24x90 ![0, 0, 0] v slices_S64x24x360_o0_0_0_S64x24x90 (ix3 p s h))
        * Ideal.tanh (extractStridedSlice S64x24x90 ![0, 0, 180] v slices_S64x24x360_o0_0_180_S64x24x90 (ix3 p s h)))
      = Lstm.cell (fun g => v (ix3 p s g)) h
  rw [e0, e1, e2]
  rfl

/-- Left operand of the 180-wide contraction: axis 0 is the result's row. -/
theorem lhs_enc_0 (i : S1536x360.Idx) (q : dot_S1536x180_S360x180_S1536x360_1_1_0_0_n_n.contr.Idx) :
    (dot_S1536x180_S360x180_S1536x360_1_1_0_0_n_n.lhsIdx i q 0).val = (i 0).val := by
  unfold DotDims.lhsIdx
  rw [dif_neg (show ¬(0 : Fin S1536x180.rank) ∈ dot_S1536x180_S360x180_S1536x360_1_1_0_0_n_n.lhsBatch by decide), dif_pos (show (0 : Fin S1536x180.rank) ∈ dot_S1536x180_S360x180_S1536x360_1_1_0_0_n_n.lhsNonContracting by decide)]
  rfl
/-- Left operand: axis 1 is the contraction index. -/
theorem lhs_enc_1 (i : S1536x360.Idx) (q : dot_S1536x180_S360x180_S1536x360_1_1_0_0_n_n.contr.Idx) :
    (dot_S1536x180_S360x180_S1536x360_1_1_0_0_n_n.lhsIdx i q 1).val = (q ⟨0, by decide⟩).val :=
  dot_S1536x180_S360x180_S1536x360_1_1_0_0_n_n.lhsIdx_val_of_single rfl i q
/-- Right operand: axis 0 is the result's column. -/
theorem rhs_enc_0 (i : S1536x360.Idx) (q : dot_S1536x180_S360x180_S1536x360_1_1_0_0_n_n.contr.Idx) :
    (dot_S1536x180_S360x180_S1536x360_1_1_0_0_n_n.rhsIdx i q 0).val = (i 1).val := by
  unfold DotDims.rhsIdx
  rw [dif_neg (show ¬(0 : Fin S360x180.rank) ∈ dot_S1536x180_S360x180_S1536x360_1_1_0_0_n_n.rhsBatch by decide), dif_pos (show (0 : Fin S360x180.rank) ∈ dot_S1536x180_S360x180_S1536x360_1_1_0_0_n_n.rhsNonContracting by decide)]
  rfl
/-- Right operand: axis 1 is the contraction index. -/
theorem rhs_enc_1 (i : S1536x360.Idx) (q : dot_S1536x180_S360x180_S1536x360_1_1_0_0_n_n.contr.Idx) :
    (dot_S1536x180_S360x180_S1536x360_1_1_0_0_n_n.rhsIdx i q 1).val = (q ⟨0, by decide⟩).val :=
  dot_S1536x180_S360x180_S1536x360_1_1_0_0_n_n.rhsIdx_val_of_single rfl i q

/-- The 180-wide matrix product into the zero accumulator, at (r, g): row r of the left operand against row g of the right. -/
theorem mm_enc_apply (a : FVec Ideal S1536x180 .bf16) (w : FVec Ideal S360x180 .bf16) (r : Fin 1536) (g : Fin 360) :
    matmul dot_S1536x180_S360x180_S1536x360_1_1_0_0_n_n none a w (constant (F := Ideal) S1536x360 .f32 0x00000000#32) (ix2 r g)
      = ∑ k : Fin 180, a (ix2 r k) * w (ix2 g k) := by
  refine (Ideal.matmul_constant_zero_apply dot_S1536x180_S360x180_S1536x360_1_1_0_0_n_n none a w (ix2 r g)).trans ?_
  rw [← Equiv.sum_comp (ValueIdx.contrEquiv1 dot_S1536x180_S360x180_S1536x360_1_1_0_0_n_n 180 rfl rfl).symm]
  refine Finset.sum_congr rfl fun k _ => ?_
  have hk := ValueIdx.contrEquiv1_symm_val dot_S1536x180_S360x180_S1536x360_1_1_0_0_n_n 180 rfl rfl k
  have el : dot_S1536x180_S360x180_S1536x360_1_1_0_0_n_n.lhsIdx (ix2 r g) ((ValueIdx.contrEquiv1 dot_S1536x180_S360x180_S1536x360_1_1_0_0_n_n 180 rfl rfl).symm k) = ix2 r k := funext fun c => Fin.ext (by
    match c with
    | ⟨0, _⟩ => exact lhs_enc_0 _ _
    | ⟨1, _⟩ => exact (lhs_enc_1 _ _).trans hk)
  have er : dot_S1536x180_S360x180_S1536x360_1_1_0_0_n_n.rhsIdx (ix2 r g) ((ValueIdx.contrEquiv1 dot_S1536x180_S360x180_S1536x360_1_1_0_0_n_n 180 rfl rfl).symm k) = ix2 g k := funext fun c => Fin.ext (by
    match c with
    | ⟨0, _⟩ => exact rhs_enc_0 _ _
    | ⟨1, _⟩ => exact (rhs_enc_1 _ _).trans hk)
  rw [el, er]

/-- Left operand of the 90-wide contraction: axis 0 is the result's row. -/
theorem lhs_dec_0 (i : S1536x360.Idx) (q : dot_S1536x90_S360x90_S1536x360_1_1_0_0_n_n.contr.Idx) :
    (dot_S1536x90_S360x90_S1536x360_1_1_0_0_n_n.lhsIdx i q 0).val = (i 0).val := by
  unfold DotDims.lhsIdx
  rw [dif_neg (show ¬(0 : Fin S1536x90.rank) ∈ dot_S1536x90_S360x90_S1536x360_1_1_0_0_n_n.lhsBatch by decide), dif_pos (show (0 : Fin S1536x90.rank) ∈ dot_S1536x90_S360x90_S1536x360_1_1_0_0_n_n.lhsNonContracting by decide)]
  rfl
/-- Left operand: axis 1 is the contraction index. -/
theorem lhs_dec_1 (i : S1536x360.Idx) (q : dot_S1536x90_S360x90_S1536x360_1_1_0_0_n_n.contr.Idx) :
    (dot_S1536x90_S360x90_S1536x360_1_1_0_0_n_n.lhsIdx i q 1).val = (q ⟨0, by decide⟩).val :=
  dot_S1536x90_S360x90_S1536x360_1_1_0_0_n_n.lhsIdx_val_of_single rfl i q
/-- Right operand: axis 0 is the result's column. -/
theorem rhs_dec_0 (i : S1536x360.Idx) (q : dot_S1536x90_S360x90_S1536x360_1_1_0_0_n_n.contr.Idx) :
    (dot_S1536x90_S360x90_S1536x360_1_1_0_0_n_n.rhsIdx i q 0).val = (i 1).val := by
  unfold DotDims.rhsIdx
  rw [dif_neg (show ¬(0 : Fin S360x90.rank) ∈ dot_S1536x90_S360x90_S1536x360_1_1_0_0_n_n.rhsBatch by decide), dif_pos (show (0 : Fin S360x90.rank) ∈ dot_S1536x90_S360x90_S1536x360_1_1_0_0_n_n.rhsNonContracting by decide)]
  rfl
/-- Right operand: axis 1 is the contraction index. -/
theorem rhs_dec_1 (i : S1536x360.Idx) (q : dot_S1536x90_S360x90_S1536x360_1_1_0_0_n_n.contr.Idx) :
    (dot_S1536x90_S360x90_S1536x360_1_1_0_0_n_n.rhsIdx i q 1).val = (q ⟨0, by decide⟩).val :=
  dot_S1536x90_S360x90_S1536x360_1_1_0_0_n_n.rhsIdx_val_of_single rfl i q

/-- The 90-wide matrix product into the zero accumulator, at (r, g): row r of the left operand against row g of the right. -/
theorem mm_dec_apply (a : FVec Ideal S1536x90 .bf16) (w : FVec Ideal S360x90 .bf16) (r : Fin 1536) (g : Fin 360) :
    matmul dot_S1536x90_S360x90_S1536x360_1_1_0_0_n_n none a w (constant (F := Ideal) S1536x360 .f32 0x00000000#32) (ix2 r g)
      = ∑ k : Fin 90, a (ix2 r k) * w (ix2 g k) := by
  refine (Ideal.matmul_constant_zero_apply dot_S1536x90_S360x90_S1536x360_1_1_0_0_n_n none a w (ix2 r g)).trans ?_
  rw [← Equiv.sum_comp (ValueIdx.contrEquiv1 dot_S1536x90_S360x90_S1536x360_1_1_0_0_n_n 90 rfl rfl).symm]
  refine Finset.sum_congr rfl fun k _ => ?_
  have hk := ValueIdx.contrEquiv1_symm_val dot_S1536x90_S360x90_S1536x360_1_1_0_0_n_n 90 rfl rfl k
  have el : dot_S1536x90_S360x90_S1536x360_1_1_0_0_n_n.lhsIdx (ix2 r g) ((ValueIdx.contrEquiv1 dot_S1536x90_S360x90_S1536x360_1_1_0_0_n_n 90 rfl rfl).symm k) = ix2 r k := funext fun c => Fin.ext (by
    match c with
    | ⟨0, _⟩ => exact lhs_dec_0 _ _
    | ⟨1, _⟩ => exact (lhs_dec_1 _ _).trans hk)
  have er : dot_S1536x90_S360x90_S1536x360_1_1_0_0_n_n.rhsIdx (ix2 r g) ((ValueIdx.contrEquiv1 dot_S1536x90_S360x90_S1536x360_1_1_0_0_n_n 90 rfl rfl).symm k) = ix2 g k := funext fun c => Fin.ext (by
    match c with
    | ⟨0, _⟩ => exact rhs_dec_0 _ _
    | ⟨1, _⟩ => exact (rhs_dec_1 _ _).trans hk)
  rw [el, er]

/-- Row p·24+s of the block re-laid as 1536 rows. -/
def row_enc (p : Fin 64) (s : Fin 24) : Fin 1536 := ⟨p.val * 24 + s.val, by have := p.isLt; have := s.isLt; omega⟩

/-- A layer's pre-activations at (p, s, g): the block re-laid as 1536 rows, multiplied against the weights
    into the zero accumulator, re-laid back, plus the broadcast bias, is the gate of row (p, s). -/
theorem gate_enc_at (a : FVec Ideal S64x24x180 .bf16) (w : FVec Ideal S360x180 .bf16) (b : FVec Ideal S360 .f32)
    (p : Fin 64) (s : Fin 24) (g : Fin 360) :
    addf (shapeCast S64x24x360 (matmul dot_S1536x180_S360x180_S1536x360_1_1_0_0_n_n none (shapeCast S1536x180 a shapeCasts_S64x24x180_S1536x180) w
            (constant (F := Ideal) S1536x360 .f32 0x00000000#32)) shapeCasts_S1536x360_S64x24x360)
        (broadcastTo S64x24x360 (shapeCast S1x1x360 b shapeCasts_S360_S1x1x360) broadcasts_S1x1x360_S64x24x360) (ix3 p s g)
      = Lstm.gate (fun f => a (ix3 p s f)) (fun g f => w (ix2 g f)) (fun g => b (ix1 g)) g := by
  have hp := p.isLt
  have hs := s.isLt
  have hg := g.isLt
  have e1 : shapeCast S64x24x360 (matmul dot_S1536x180_S360x180_S1536x360_1_1_0_0_n_n none (shapeCast S1536x180 a shapeCasts_S64x24x180_S1536x180) w
        (constant (F := Ideal) S1536x360 .f32 0x00000000#32)) shapeCasts_S1536x360_S64x24x360 (ix3 p s g)
      = matmul dot_S1536x180_S360x180_S1536x360_1_1_0_0_n_n none (shapeCast S1536x180 a shapeCasts_S64x24x180_S1536x180) w
        (constant (F := Ideal) S1536x360 .f32 0x00000000#32) (ix2 (row_enc p s) g) :=
    shapeCast_apply _ shapeCasts_S1536x360_S64x24x360 (ix3 p s g) (ix2 (row_enc p s) g)
      (by rewrite [Shape.rowMajor_val_two, Shape.rowMajor_val_three]
          show (p.val * 24 + s.val) * 360 + g.val = (p.val * 24 + s.val) * 360 + g.val
          rfl)
  have e2 : ∀ k : Fin 180, shapeCast S1536x180 a shapeCasts_S64x24x180_S1536x180 (ix2 (row_enc p s) k) = a (ix3 p s k) := fun k =>
    shapeCast_apply a shapeCasts_S64x24x180_S1536x180 (ix2 (row_enc p s) k) (ix3 p s k)
      (by rewrite [Shape.rowMajor_val_two, Shape.rowMajor_val_three]
          show (p.val * 24 + s.val) * 180 + k.val = (p.val * 24 + s.val) * 180 + k.val
          rfl)
  have e3 : broadcastTo S64x24x360 (shapeCast S1x1x360 b shapeCasts_S360_S1x1x360) broadcasts_S1x1x360_S64x24x360 (ix3 p s g)
      = shapeCast S1x1x360 b shapeCasts_S360_S1x1x360 (ix3 (0 : Fin 1) (0 : Fin 1) g) :=
    broadcastTo_apply _ broadcasts_S1x1x360_S64x24x360 (ix3 p s g) (ix3 (0 : Fin 1) (0 : Fin 1) g)
      (fun c => match c with
        | ⟨0, _⟩ => by show (0 : Nat) = if (1 : Nat) = 1 then 0 else p.val; rw [if_pos rfl]
        | ⟨1, _⟩ => by show (0 : Nat) = if (1 : Nat) = 1 then 0 else s.val; rw [if_pos rfl]
        | ⟨2, _⟩ => by show g.val = if (360 : Nat) = 1 then 0 else g.val; rw [if_neg (by decide)])
  have e4 : shapeCast S1x1x360 b shapeCasts_S360_S1x1x360 (ix3 (0 : Fin 1) (0 : Fin 1) g) = b (ix1 g) :=
    shapeCast_apply b shapeCasts_S360_S1x1x360 (ix3 (0 : Fin 1) (0 : Fin 1) g) (ix1 g)
      (by rewrite [Shape.rowMajor_val_one, Shape.rowMajor_val_three]
          show g.val = (0 * 1 + 0) * 360 + g.val
          omega)
  show shapeCast S64x24x360 (matmul dot_S1536x180_S360x180_S1536x360_1_1_0_0_n_n none (shapeCast S1536x180 a shapeCasts_S64x24x180_S1536x180) w
        (constant (F := Ideal) S1536x360 .f32 0x00000000#32)) shapeCasts_S1536x360_S64x24x360 (ix3 p s g)
      + broadcastTo S64x24x360 (shapeCast S1x1x360 b shapeCasts_S360_S1x1x360) broadcasts_S1x1x360_S64x24x360 (ix3 p s g)
      = Lstm.gate (fun f => a (ix3 p s f)) (fun g f => w (ix2 g f)) (fun g => b (ix1 g)) g
  rw [e1, e3, e4, mm_enc_apply]
  unfold Lstm.gate
  exact congrArg (· + b (ix1 g)) (Finset.sum_congr rfl fun k _ => congrArg (· * w (ix2 g k)) (e2 k))

/-- Row p·24+s of the block re-laid as 1536 rows. -/
def row_dec (p : Fin 64) (s : Fin 24) : Fin 1536 := ⟨p.val * 24 + s.val, by have := p.isLt; have := s.isLt; omega⟩

/-- A layer's pre-activations at (p, s, g): the block re-laid as 1536 rows, multiplied against the weights
    into the zero accumulator, re-laid back, plus the broadcast bias, is the gate of row (p, s). -/
theorem gate_dec_at (a : FVec Ideal S64x24x90 .bf16) (w : FVec Ideal S360x90 .bf16) (b : FVec Ideal S360 .f32)
    (p : Fin 64) (s : Fin 24) (g : Fin 360) :
    addf (shapeCast S64x24x360 (matmul dot_S1536x90_S360x90_S1536x360_1_1_0_0_n_n none (shapeCast S1536x90 a shapeCasts_S64x24x90_S1536x90) w
            (constant (F := Ideal) S1536x360 .f32 0x00000000#32)) shapeCasts_S1536x360_S64x24x360)
        (broadcastTo S64x24x360 (shapeCast S1x1x360 b shapeCasts_S360_S1x1x360) broadcasts_S1x1x360_S64x24x360) (ix3 p s g)
      = Lstm.gate (fun f => a (ix3 p s f)) (fun g f => w (ix2 g f)) (fun g => b (ix1 g)) g := by
  have hp := p.isLt
  have hs := s.isLt
  have hg := g.isLt
  have e1 : shapeCast S64x24x360 (matmul dot_S1536x90_S360x90_S1536x360_1_1_0_0_n_n none (shapeCast S1536x90 a shapeCasts_S64x24x90_S1536x90) w
        (constant (F := Ideal) S1536x360 .f32 0x00000000#32)) shapeCasts_S1536x360_S64x24x360 (ix3 p s g)
      = matmul dot_S1536x90_S360x90_S1536x360_1_1_0_0_n_n none (shapeCast S1536x90 a shapeCasts_S64x24x90_S1536x90) w
        (constant (F := Ideal) S1536x360 .f32 0x00000000#32) (ix2 (row_dec p s) g) :=
    shapeCast_apply _ shapeCasts_S1536x360_S64x24x360 (ix3 p s g) (ix2 (row_dec p s) g)
      (by rewrite [Shape.rowMajor_val_two, Shape.rowMajor_val_three]
          show (p.val * 24 + s.val) * 360 + g.val = (p.val * 24 + s.val) * 360 + g.val
          rfl)
  have e2 : ∀ k : Fin 90, shapeCast S1536x90 a shapeCasts_S64x24x90_S1536x90 (ix2 (row_dec p s) k) = a (ix3 p s k) := fun k =>
    shapeCast_apply a shapeCasts_S64x24x90_S1536x90 (ix2 (row_dec p s) k) (ix3 p s k)
      (by rewrite [Shape.rowMajor_val_two, Shape.rowMajor_val_three]
          show (p.val * 24 + s.val) * 90 + k.val = (p.val * 24 + s.val) * 90 + k.val
          rfl)
  have e3 : broadcastTo S64x24x360 (shapeCast S1x1x360 b shapeCasts_S360_S1x1x360) broadcasts_S1x1x360_S64x24x360 (ix3 p s g)
      = shapeCast S1x1x360 b shapeCasts_S360_S1x1x360 (ix3 (0 : Fin 1) (0 : Fin 1) g) :=
    broadcastTo_apply _ broadcasts_S1x1x360_S64x24x360 (ix3 p s g) (ix3 (0 : Fin 1) (0 : Fin 1) g)
      (fun c => match c with
        | ⟨0, _⟩ => by show (0 : Nat) = if (1 : Nat) = 1 then 0 else p.val; rw [if_pos rfl]
        | ⟨1, _⟩ => by show (0 : Nat) = if (1 : Nat) = 1 then 0 else s.val; rw [if_pos rfl]
        | ⟨2, _⟩ => by show g.val = if (360 : Nat) = 1 then 0 else g.val; rw [if_neg (by decide)])
  have e4 : shapeCast S1x1x360 b shapeCasts_S360_S1x1x360 (ix3 (0 : Fin 1) (0 : Fin 1) g) = b (ix1 g) :=
    shapeCast_apply b shapeCasts_S360_S1x1x360 (ix3 (0 : Fin 1) (0 : Fin 1) g) (ix1 g)
      (by rewrite [Shape.rowMajor_val_one, Shape.rowMajor_val_three]
          show g.val = (0 * 1 + 0) * 360 + g.val
          omega)
  show shapeCast S64x24x360 (matmul dot_S1536x90_S360x90_S1536x360_1_1_0_0_n_n none (shapeCast S1536x90 a shapeCasts_S64x24x90_S1536x90) w
        (constant (F := Ideal) S1536x360 .f32 0x00000000#32)) shapeCasts_S1536x360_S64x24x360 (ix3 p s g)
      + broadcastTo S64x24x360 (shapeCast S1x1x360 b shapeCasts_S360_S1x1x360) broadcasts_S1x1x360_S64x24x360 (ix3 p s g)
      = Lstm.gate (fun f => a (ix3 p s f)) (fun g f => w (ix2 g f)) (fun g => b (ix1 g)) g
  rw [e1, e3, e4, mm_dec_apply]
  unfold Lstm.gate
  exact congrArg (· + b (ix1 g)) (Finset.sum_congr rfl fun k _ => congrArg (· * w (ix2 g k)) (e2 k))

/-- The encoder's 360 pre-activations of the block. -/
def encPre (x0 : FVec Ideal S64x24x180 .bf16) (x1 : FVec Ideal S360x180 .bf16) (x2 : FVec Ideal S360 .f32) :
    FVec Ideal S64x24x360 .f32 :=
  addf (shapeCast S64x24x360 (matmul dot_S1536x180_S360x180_S1536x360_1_1_0_0_n_n none
          (shapeCast S1536x180 (shapeCast S64x24x180 x0 shapeCasts_S64x24x180_S64x24x180) shapeCasts_S64x24x180_S1536x180)
          (shapeCast S360x180 x1 shapeCasts_S360x180_S360x180)
          (constant (F := Ideal) S1536x360 .f32 0x00000000#32)) shapeCasts_S1536x360_S64x24x360)
    (broadcastTo S64x24x360 (shapeCast S1x1x360 (shapeCast S360 x2 shapeCasts_S360_S360) shapeCasts_S360_S1x1x360)
      broadcasts_S1x1x360_S64x24x360)

/-- The encoder's hidden block: σ of the cell of its pre-activations, narrowed (the identity here). -/
def encHid (x0 : FVec Ideal S64x24x180 .bf16) (x1 : FVec Ideal S360x180 .bf16) (x2 : FVec Ideal S360 .f32) :
    FVec Ideal S64x24x90 .bf16 :=
  truncf .bf16 (logistic
    (mulf (logistic (extractStridedSlice S64x24x90 ![0, 0, 270] (encPre x0 x1 x2) slices_S64x24x360_o0_0_270_S64x24x90))
      (tanh (mulf (logistic (extractStridedSlice S64x24x90 ![0, 0, 0] (encPre x0 x1 x2) slices_S64x24x360_o0_0_0_S64x24x90))
        (tanh (extractStridedSlice S64x24x90 ![0, 0, 180] (encPre x0 x1 x2) slices_S64x24x360_o0_0_180_S64x24x90))))))
    bitsLt_bf16_f32

/-- The decoder's pre-activation block is the decoder layer over the encoder's hidden block. -/
theorem pay4_eq (x0 : FVec Ideal S64x24x180 .bf16) (x1 : FVec Ideal S360x180 .bf16) (x2 : FVec Ideal S360 .f32)
    (x3 : FVec Ideal S360x90 .bf16) (x4 : FVec Ideal S360 .f32) :
    k0_pay4 (F := Ideal) x0 x1 x2 x3 x4
      = addf (shapeCast S64x24x360 (matmul dot_S1536x90_S360x90_S1536x360_1_1_0_0_n_n none
            (shapeCast S1536x90 (encHid x0 x1 x2) shapeCasts_S64x24x90_S1536x90)
            (shapeCast S360x90 x3 shapeCasts_S360x90_S360x90)
            (constant (F := Ideal) S1536x360 .f32 0x00000000#32)) shapeCasts_S1536x360_S64x24x360)
          (broadcastTo S64x24x360 (shapeCast S1x1x360 (shapeCast S360 x4 shapeCasts_S360_S360) shapeCasts_S360_S1x1x360)
            broadcasts_S1x1x360_S64x24x360) := rfl

/-- The encoder's pre-activations at (p, s, g) are the gate of input row (p, s). -/
theorem encPre_at (x0 : FVec Ideal S64x24x180 .bf16) (x1 : FVec Ideal S360x180 .bf16) (x2 : FVec Ideal S360 .f32)
    (p : Fin 64) (s : Fin 24) (g : Fin 360) :
    encPre x0 x1 x2 (ix3 p s g)
      = Lstm.gate (fun f => x0 (ix3 p s f)) (fun g f => x1 (ix2 g f)) (fun g => x2 (ix1 g)) g := by
  have c0 : shapeCast S64x24x180 x0 shapeCasts_S64x24x180_S64x24x180 = x0 := shapeCast_self x0 shapeCasts_S64x24x180_S64x24x180
  have c1 : shapeCast S360x180 x1 shapeCasts_S360x180_S360x180 = x1 := shapeCast_self x1 shapeCasts_S360x180_S360x180
  have c2 : shapeCast S360 x2 shapeCasts_S360_S360 = x2 := shapeCast_self x2 shapeCasts_S360_S360
  unfold encPre
  rw [c0, c1, c2]
  exact gate_enc_at x0 x1 x2 p s g

/-- The encoder's hidden block at (p, s, k) is the specification's encoder of input row (p, s). -/
theorem encHid_at (x0 : FVec Ideal S64x24x180 .bf16) (x1 : FVec Ideal S360x180 .bf16) (x2 : FVec Ideal S360 .f32)
    (p : Fin 64) (s : Fin 24) (k : Fin 90) :
    encHid x0 x1 x2 (ix3 p s k)
      = Lstm.enc (fun f => x0 (ix3 p s f)) (fun g f => x1 (ix2 g f)) (fun g => x2 (ix1 g)) k := by
  unfold Lstm.enc
  refine congrArg Ideal.logistic ((cell_at (encPre x0 x1 x2) p s k).trans ?_)
  exact congrArg (fun G => Lstm.cell G k) (funext fun g => encPre_at x0 x1 x2 p s g)

/-- The decoder's pre-activations at (p, s, g) are the gate of the encoder's row (p, s). -/
theorem pay4_at (x0 : FVec Ideal S64x24x180 .bf16) (x1 : FVec Ideal S360x180 .bf16) (x2 : FVec Ideal S360 .f32)
    (x3 : FVec Ideal S360x90 .bf16) (x4 : FVec Ideal S360 .f32) (p : Fin 64) (s : Fin 24) (g : Fin 360) :
    k0_pay4 (F := Ideal) x0 x1 x2 x3 x4 (ix3 p s g)
      = Lstm.gate (Lstm.enc (fun f => x0 (ix3 p s f)) (fun g f => x1 (ix2 g f)) (fun g => x2 (ix1 g)))
          (fun g k => x3 (ix2 g k)) (fun g => x4 (ix1 g)) g := by
  have c3 : shapeCast S360x90 x3 shapeCasts_S360x90_S360x90 = x3 := shapeCast_self x3 shapeCasts_S360x90_S360x90
  have c4 : shapeCast S360 x4 shapeCasts_S360_S360 = x4 := shapeCast_self x4 shapeCasts_S360_S360
  rw [pay4_eq, c3, c4]
  refine (gate_dec_at (encHid x0 x1 x2) x3 x4 p s g).trans ?_
  exact congrArg (fun X => Lstm.gate X (fun g k => x3 (ix2 g k)) (fun g => x4 (ix1 g)) g)
    (funext fun k => encHid_at x0 x1 x2 p s k)

/-- One grid point's decoder values: entry (p, s, h) of the block is the two-cell function of input row (p, s). -/
theorem dec_block (x0 : Vec Ideal S64x24x180 .bf16) (x1 : Vec Ideal S360x180 .bf16) (x2 : Vec Ideal S360 .f32)
    (x3 : Vec Ideal S360x90 .bf16) (x4 : Vec Ideal S360 .f32) (p : Fin 64) (s : Fin 24) (h : Fin 90) :
    k0_pay7 (F := Ideal) (k0_pay5 x0 x1 x2 x3 x4) (k0_pay6 x0 x1 x2 x3 x4) (ix3 p s h)
      = Lstm.dec (fun f => x0 (ix3 p s f)) (fun g f => x1 (ix2 g f)) (fun g => x2 (ix1 g))
          (fun g k => x3 (ix2 g k)) (fun g => x4 (ix1 g)) h := by
  unfold Lstm.dec
  refine (cell_at (k0_pay4 (F := Ideal) x0 x1 x2 x3 x4) p s h).trans ?_
  exact congrArg (fun G => Lstm.cell G h) (funext fun g => pay4_at x0 x1 x2 x3 x4 p s g)

end Cert.KernelIdeal.Payload

end
-- ==== Proof.KernelProj.lean ====
import proofs.«106832_j8718783611481_1_alg».proof.Proof.Gen.KernelIdeal.Skeleton
import proofs.«106832_j8718783611481_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open Idealize.ShloMosaic Idealize.ShloMosaic.ValueIdx

namespace Cert.KernelIdeal.Payload

open Cert.KernelIdeal Cert.KernelIdeal.Gen

/-! The contraction record of the per-step product, axis by axis: the left operand is read at (row of the output, contraction
    index), the right operand at (column of the output, contraction index). -/

theorem lhs_proj_0 (i : S64x40.Idx) (q : dot_S64x90_S40x90_S64x40_1_1_0_0_n_n.contr.Idx) :
    (dot_S64x90_S40x90_S64x40_1_1_0_0_n_n.lhsIdx i q 0).val = (i 0).val := by
  unfold DotDims.lhsIdx
  rw [dif_neg (show ¬(0 : Fin S64x90.rank) ∈ dot_S64x90_S40x90_S64x40_1_1_0_0_n_n.lhsBatch by decide), dif_pos (show (0 : Fin S64x90.rank) ∈ dot_S64x90_S40x90_S64x40_1_1_0_0_n_n.lhsNonContracting by decide)]
  rfl
theorem lhs_proj_1 (i : S64x40.Idx) (q : dot_S64x90_S40x90_S64x40_1_1_0_0_n_n.contr.Idx) :
    (dot_S64x90_S40x90_S64x40_1_1_0_0_n_n.lhsIdx i q 1).val = (q ⟨0, by decide⟩).val :=
  dot_S64x90_S40x90_S64x40_1_1_0_0_n_n.lhsIdx_val_of_single rfl i q
theorem rhs_proj_0 (i : S64x40.Idx) (q : dot_S64x90_S40x90_S64x40_1_1_0_0_n_n.contr.Idx) :
    (dot_S64x90_S40x90_S64x40_1_1_0_0_n_n.rhsIdx i q 0).val = (i 1).val := by
  unfold DotDims.rhsIdx
  rw [dif_neg (show ¬(0 : Fin S40x90.rank) ∈ dot_S64x90_S40x90_S64x40_1_1_0_0_n_n.rhsBatch by decide), dif_pos (show (0 : Fin S40x90.rank) ∈ dot_S64x90_S40x90_S64x40_1_1_0_0_n_n.rhsNonContracting by decide)]
  rfl
theorem rhs_proj_1 (i : S64x40.Idx) (q : dot_S64x90_S40x90_S64x40_1_1_0_0_n_n.contr.Idx) :
    (dot_S64x90_S40x90_S64x40_1_1_0_0_n_n.rhsIdx i q 1).val = (q ⟨0, by decide⟩).val :=
  dot_S64x90_S40x90_S64x40_1_1_0_0_n_n.rhsIdx_val_of_single rfl i q

/-- The product of a [64,90] block with a [40,90] block, contracted over the 90-axis of both, into the zero accumulator. -/
theorem matmul_proj_apply (L : FVec Ideal S64x90 .bf16) (R : FVec Ideal S40x90 .bf16) (p : Fin 64) (j : Fin 40) :
    matmul (F := Ideal) dot_S64x90_S40x90_S64x40_1_1_0_0_n_n none L R (constant (F := Ideal) S64x40 .f32 0x00000000#32) (ix2 p j)
      = ∑ h : Fin 90, L (ix2 p h) * R (ix2 j h) := by
  refine (Ideal.matmul_constant_zero_apply dot_S64x90_S40x90_S64x40_1_1_0_0_n_n none L R (ix2 p j)).trans ?_
  rw [← Equiv.sum_comp (ValueIdx.contrEquiv1 dot_S64x90_S40x90_S64x40_1_1_0_0_n_n 90 rfl rfl).symm]
  refine Finset.sum_congr rfl fun k _ => ?_
  have hk := ValueIdx.contrEquiv1_symm_val dot_S64x90_S40x90_S64x40_1_1_0_0_n_n 90 rfl rfl k
  have el : dot_S64x90_S40x90_S64x40_1_1_0_0_n_n.lhsIdx (ix2 p j) ((ValueIdx.contrEquiv1 dot_S64x90_S40x90_S64x40_1_1_0_0_n_n 90 rfl rfl).symm k) = ix2 p k := funext fun a => Fin.ext (by
    match a with
    | ⟨0, _⟩ => exact lhs_proj_0 _ _
    | ⟨1, _⟩ => exact (lhs_proj_1 _ _).trans hk)
  have er : dot_S64x90_S40x90_S64x40_1_1_0_0_n_n.rhsIdx (ix2 p j) ((ValueIdx.contrEquiv1 dot_S64x90_S40x90_S64x40_1_1_0_0_n_n 90 rfl rfl).symm k) = ix2 j k := funext fun a => Fin.ext (by
    match a with
    | ⟨0, _⟩ => exact rhs_proj_0 _ _
    | ⟨1, _⟩ => exact (rhs_proj_1 _ _).trans hk)
  rw [el, er]

/-- The step-s slice of a [64,24,90] block, re-laid to [64,90], read at (p, h). -/
theorem sliceA_apply (off : Fin 3 → ℕ) (s : Fin 24) (hoff : off = ![0, s.val, 0])
    (hA : S64x24x90.Slices off S64x1x90) (A' : FVec Ideal S64x24x90 .bf16) (p : Fin 64) (h : Fin 90) :
    shapeCast S64x90 (extractStridedSlice S64x1x90 off A' hA) shapeCasts_S64x1x90_S64x90 (ix2 p h) = A' (ix3 p s h) := by
  subst hoff
  refine (shapeCast_apply (extractStridedSlice S64x1x90 ![0, s.val, 0] A' hA) shapeCasts_S64x1x90_S64x90 (ix2 p h) (ix3 p 0 h) ?_).trans ?_
  · rw [Shape.rowMajor_val_three, Shape.rowMajor_val_two]
    show (p.val * 1 + 0) * 90 + h.val = p.val * 90 + h.val
    omega
  · refine extractStridedSlice_apply ![0, s.val, 0] A' hA (ix3 p 0 h) (ix3 p s h) (fun a => ?_)
    match a with
    | ⟨0, _⟩ => exact (Nat.zero_add p.val).symm
    | ⟨1, _⟩ => rfl
    | ⟨2, _⟩ => exact (Nat.zero_add h.val).symm

/-- The step-s slice of a [40,24,90] block, re-laid to [40,90], read at (j, h). -/
theorem sliceB_apply (off : Fin 3 → ℕ) (s : Fin 24) (hoff : off = ![0, s.val, 0])
    (hB : S40x24x90.Slices off S40x1x90) (B' : FVec Ideal S40x24x90 .bf16) (j : Fin 40) (h : Fin 90) :
    shapeCast S40x90 (extractStridedSlice S40x1x90 off B' hB) shapeCasts_S40x1x90_S40x90 (ix2 j h) = B' (ix3 j s h) := by
  subst hoff
  refine (shapeCast_apply (extractStridedSlice S40x1x90 ![0, s.val, 0] B' hB) shapeCasts_S40x1x90_S40x90 (ix2 j h) (ix3 j 0 h) ?_).trans ?_
  · rw [Shape.rowMajor_val_three, Shape.rowMajor_val_two]
    show (j.val * 1 + 0) * 90 + h.val = j.val * 90 + h.val
    omega
  · refine extractStridedSlice_apply ![0, s.val, 0] B' hB (ix3 j 0 h) (ix3 j s h) (fun a => ?_)
    match a with
    | ⟨0, _⟩ => exact (Nat.zero_add j.val).symm
    | ⟨1, _⟩ => rfl
    | ⟨2, _⟩ => exact (Nat.zero_add h.val).symm

/-- One step's contribution at (p, j): the contraction over the hidden axis. -/
def dterm (A' : FVec Ideal S64x24x90 .bf16) (B' : FVec Ideal S40x24x90 .bf16) (p : Fin 64) (j : Fin 40) (s : Fin 24) : EReal :=
  ∑ h : Fin 90, A' (ix3 p s h) * B' (ix3 j s h)

/-- One step of the kernel: the product of the two re-laid step-s slices, read at (p, j). -/
theorem step_apply (off : Fin 3 → ℕ) (s : Fin 24) (hoff : off = ![0, s.val, 0])
    (hA : S64x24x90.Slices off S64x1x90) (hB : S40x24x90.Slices off S40x1x90)
    (A' : FVec Ideal S64x24x90 .bf16) (B' : FVec Ideal S40x24x90 .bf16) (p : Fin 64) (j : Fin 40) :
    matmul (F := Ideal) dot_S64x90_S40x90_S64x40_1_1_0_0_n_n none
        (shapeCast S64x90 (extractStridedSlice S64x1x90 off A' hA) shapeCasts_S64x1x90_S64x90)
        (shapeCast S40x90 (extractStridedSlice S40x1x90 off B' hB) shapeCasts_S40x1x90_S40x90)
        (constant (F := Ideal) S64x40 .f32 0x00000000#32) (ix2 p j)
      = dterm A' B' p j s := by
  refine (matmul_proj_apply _ _ p j).trans ?_
  unfold dterm
  refine Finset.sum_congr rfl fun h _ => ?_
  rw [sliceA_apply off s hoff hA A' p h, sliceB_apply off s hoff hB B' j h]

/-- Steps 0 to 6, added up from zero. -/
theorem pay9_apply (v42 v43 : FVec Ideal S64x24x90 .f32) (x5 : Vec Ideal S40x24x90 .bf16) (p : Fin 64) (j : Fin 40) :
    k0_pay9 (F := Ideal) v42 v43 x5 (ix2 p j)
      = 0 + dterm (k0_pay7 v42 v43) (k0_pay8 x5) p j ⟨0, by omega⟩ + dterm (k0_pay7 v42 v43) (k0_pay8 x5) p j ⟨1, by omega⟩
          + dterm (k0_pay7 v42 v43) (k0_pay8 x5) p j ⟨2, by omega⟩ + dterm (k0_pay7 v42 v43) (k0_pay8 x5) p j ⟨3, by omega⟩
          + dterm (k0_pay7 v42 v43) (k0_pay8 x5) p j ⟨4, by omega⟩ + dterm (k0_pay7 v42 v43) (k0_pay8 x5) p j ⟨5, by omega⟩
          + dterm (k0_pay7 v42 v43) (k0_pay8 x5) p j ⟨6, by omega⟩ := by
  unfold k0_pay9
  simp only [addf_apply]
  rw [step_apply ![0, 0, 0] ⟨0, by omega⟩ rfl slices_S64x24x90_o0_0_0_S64x1x90 slices_S40x24x90_o0_0_0_S40x1x90 (k0_pay7 v42 v43) (k0_pay8 x5) p j]
  rw [step_apply ![0, 1, 0] ⟨1, by omega⟩ rfl slices_S64x24x90_o0_1_0_S64x1x90 slices_S40x24x90_o0_1_0_S40x1x90 (k0_pay7 v42 v43) (k0_pay8 x5) p j]
  rw [step_apply ![0, 2, 0] ⟨2, by omega⟩ rfl slices_S64x24x90_o0_2_0_S64x1x90 slices_S40x24x90_o0_2_0_S40x1x90 (k0_pay7 v42 v43) (k0_pay8 x5) p j]
  rw [step_apply ![0, 3, 0] ⟨3, by omega⟩ rfl slices_S64x24x90_o0_3_0_S64x1x90 slices_S40x24x90_o0_3_0_S40x1x90 (k0_pay7 v42 v43) (k0_pay8 x5) p j]
  rw [step_apply ![0, 4, 0] ⟨4, by omega⟩ rfl slices_S64x24x90_o0_4_0_S64x1x90 slices_S40x24x90_o0_4_0_S40x1x90 (k0_pay7 v42 v43) (k0_pay8 x5) p j]
  rw [step_apply ![0, 5, 0] ⟨5, by omega⟩ rfl slices_S64x24x90_o0_5_0_S64x1x90 slices_S40x24x90_o0_5_0_S40x1x90 (k0_pay7 v42 v43) (k0_pay8 x5) p j]
  rw [step_apply ![0, 6, 0] ⟨6, by omega⟩ rfl slices_S64x24x90_o0_6_0_S64x1x90 slices_S40x24x90_o0_6_0_S40x1x90 (k0_pay7 v42 v43) (k0_pay8 x5) p j]
  rw [broadcast_apply, Ideal.ofBits_def, Ideal.ofBits_zero_f32]

/-- Steps 7 to 14, added to what came before; step 7's left operand is the re-laid slice passed in. -/
theorem pay11_apply (v42 v43 : FVec Ideal S64x24x90 .f32) (x5 : Vec Ideal S40x24x90 .bf16) (v90 : FVec Ideal S64x40 .f32)
    (p : Fin 64) (j : Fin 40) :
    k0_pay11 (F := Ideal) (k0_pay7 v42 v43) (k0_pay8 x5) v90 (k0_pay10 v42 v43) (ix2 p j)
      = v90 (ix2 p j) + dterm (k0_pay7 v42 v43) (k0_pay8 x5) p j ⟨7, by omega⟩ + dterm (k0_pay7 v42 v43) (k0_pay8 x5) p j ⟨8, by omega⟩
          + dterm (k0_pay7 v42 v43) (k0_pay8 x5) p j ⟨9, by omega⟩ + dterm (k0_pay7 v42 v43) (k0_pay8 x5) p j ⟨10, by omega⟩
          + dterm (k0_pay7 v42 v43) (k0_pay8 x5) p j ⟨11, by omega⟩ + dterm (k0_pay7 v42 v43) (k0_pay8 x5) p j ⟨12, by omega⟩
          + dterm (k0_pay7 v42 v43) (k0_pay8 x5) p j ⟨13, by omega⟩ + dterm (k0_pay7 v42 v43) (k0_pay8 x5) p j ⟨14, by omega⟩ := by
  unfold k0_pay11 k0_pay10
  simp only [addf_apply]
  rw [step_apply ![0, 7, 0] ⟨7, by omega⟩ rfl slices_S64x24x90_o0_7_0_S64x1x90 slices_S40x24x90_o0_7_0_S40x1x90 (k0_pay7 v42 v43) (k0_pay8 x5) p j]
  rw [step_apply ![0, 8, 0] ⟨8, by omega⟩ rfl slices_S64x24x90_o0_8_0_S64x1x90 slices_S40x24x90_o0_8_0_S40x1x90 (k0_pay7 v42 v43) (k0_pay8 x5) p j]
  rw [step_apply ![0, 9, 0] ⟨9, by omega⟩ rfl slices_S64x24x90_o0_9_0_S64x1x90 slices_S40x24x90_o0_9_0_S40x1x90 (k0_pay7 v42 v43) (k0_pay8 x5) p j]
  rw [step_apply ![0, 10, 0] ⟨10, by omega⟩ rfl slices_S64x24x90_o0_10_0_S64x1x90 slices_S40x24x90_o0_10_0_S40x1x90 (k0_pay7 v42 v43) (k0_pay8 x5) p j]
  rw [step_apply ![0, 11, 0] ⟨11, by omega⟩ rfl slices_S64x24x90_o0_11_0_S64x1x90 slices_S40x24x90_o0_11_0_S40x1x90 (k0_pay7 v42 v43) (k0_pay8 x5) p j]
  rw [step_apply ![0, 12, 0] ⟨12, by omega⟩ rfl slices_S64x24x90_o0_12_0_S64x1x90 slices_S40x24x90_o0_12_0_S40x1x90 (k0_pay7 v42 v43) (k0_pay8 x5) p j]
  rw [step_apply ![0, 13, 0] ⟨13, by omega⟩ rfl slices_S64x24x90_o0_13_0_S64x1x90 slices_S40x24x90_o0_13_0_S40x1x90 (k0_pay7 v42 v43) (k0_pay8 x5) p j]
  rw [step_apply ![0, 14, 0] ⟨14, by omega⟩ rfl slices_S64x24x90_o0_14_0_S64x1x90 slices_S40x24x90_o0_14_0_S40x1x90 (k0_pay7 v42 v43) (k0_pay8 x5) p j]

/-- Step 15's product. -/
theorem pay12_apply (v42 v43 : FVec Ideal S64x24x90 .f32) (x5 : Vec Ideal S40x24x90 .bf16) (p : Fin 64) (j : Fin 40) :
    k0_pay12 (F := Ideal) (k0_pay7 v42 v43) (k0_pay8 x5) (ix2 p j) = dterm (k0_pay7 v42 v43) (k0_pay8 x5) p j ⟨15, by omega⟩ := by
  unfold k0_pay12
  exact step_apply ![0, 15, 0] ⟨15, by omega⟩ rfl slices_S64x24x90_o0_15_0_S64x1x90 slices_S40x24x90_o0_15_0_S40x1x90 (k0_pay7 v42 v43) (k0_pay8 x5) p j

/-- Step 15's product and steps 16 to 23, added to what came before. -/
theorem pay13_apply (v42 v43 : FVec Ideal S64x24x90 .f32) (x5 : Vec Ideal S40x24x90 .bf16) (v138 v143 : FVec Ideal S64x40 .f32)
    (p : Fin 64) (j : Fin 40) :
    k0_pay13 (F := Ideal) (k0_pay7 v42 v43) (k0_pay8 x5) v138 v143 (ix2 p j)
      = v138 (ix2 p j) + v143 (ix2 p j) + dterm (k0_pay7 v42 v43) (k0_pay8 x5) p j ⟨16, by omega⟩ + dterm (k0_pay7 v42 v43) (k0_pay8 x5) p j ⟨17, by omega⟩
          + dterm (k0_pay7 v42 v43) (k0_pay8 x5) p j ⟨18, by omega⟩ + dterm (k0_pay7 v42 v43) (k0_pay8 x5) p j ⟨19, by omega⟩
          + dterm (k0_pay7 v42 v43) (k0_pay8 x5) p j ⟨20, by omega⟩ + dterm (k0_pay7 v42 v43) (k0_pay8 x5) p j ⟨21, by omega⟩
          + dterm (k0_pay7 v42 v43) (k0_pay8 x5) p j ⟨22, by omega⟩ + dterm (k0_pay7 v42 v43) (k0_pay8 x5) p j ⟨23, by omega⟩ := by
  unfold k0_pay13
  simp only [addf_apply]
  rw [step_apply ![0, 16, 0] ⟨16, by omega⟩ rfl slices_S64x24x90_o0_16_0_S64x1x90 slices_S40x24x90_o0_16_0_S40x1x90 (k0_pay7 v42 v43) (k0_pay8 x5) p j]
  rw [step_apply ![0, 17, 0] ⟨17, by omega⟩ rfl slices_S64x24x90_o0_17_0_S64x1x90 slices_S40x24x90_o0_17_0_S40x1x90 (k0_pay7 v42 v43) (k0_pay8 x5) p j]
  rw [step_apply ![0, 18, 0] ⟨18, by omega⟩ rfl slices_S64x24x90_o0_18_0_S64x1x90 slices_S40x24x90_o0_18_0_S40x1x90 (k0_pay7 v42 v43) (k0_pay8 x5) p j]
  rw [step_apply ![0, 19, 0] ⟨19, by omega⟩ rfl slices_S64x24x90_o0_19_0_S64x1x90 slices_S40x24x90_o0_19_0_S40x1x90 (k0_pay7 v42 v43) (k0_pay8 x5) p j]
  rw [step_apply ![0, 20, 0] ⟨20, by omega⟩ rfl slices_S64x24x90_o0_20_0_S64x1x90 slices_S40x24x90_o0_20_0_S40x1x90 (k0_pay7 v42 v43) (k0_pay8 x5) p j]
  rw [step_apply ![0, 21, 0] ⟨21, by omega⟩ rfl slices_S64x24x90_o0_21_0_S64x1x90 slices_S40x24x90_o0_21_0_S40x1x90 (k0_pay7 v42 v43) (k0_pay8 x5) p j]
  rw [step_apply ![0, 22, 0] ⟨22, by omega⟩ rfl slices_S64x24x90_o0_22_0_S64x1x90 slices_S40x24x90_o0_22_0_S40x1x90 (k0_pay7 v42 v43) (k0_pay8 x5) p j]
  rw [step_apply ![0, 23, 0] ⟨23, by omega⟩ rfl slices_S64x24x90_o0_23_0_S64x1x90 slices_S40x24x90_o0_23_0_S40x1x90 (k0_pay7 v42 v43) (k0_pay8 x5) p j]

/-- A sum over the 24 steps, written out from zero in step order. -/
theorem sum24 (d : Fin 24 → EReal) :
    ∑ s : Fin 24, d s
      = 0 + d ⟨0, by omega⟩ + d ⟨1, by omega⟩ + d ⟨2, by omega⟩ + d ⟨3, by omega⟩ + d ⟨4, by omega⟩ + d ⟨5, by omega⟩
          + d ⟨6, by omega⟩ + d ⟨7, by omega⟩ + d ⟨8, by omega⟩ + d ⟨9, by omega⟩ + d ⟨10, by omega⟩ + d ⟨11, by omega⟩
          + d ⟨12, by omega⟩ + d ⟨13, by omega⟩ + d ⟨14, by omega⟩ + d ⟨15, by omega⟩ + d ⟨16, by omega⟩ + d ⟨17, by omega⟩
          + d ⟨18, by omega⟩ + d ⟨19, by omega⟩ + d ⟨20, by omega⟩ + d ⟨21, by omega⟩ + d ⟨22, by omega⟩ + d ⟨23, by omega⟩ := by
  simp only [Fin.sum_univ_castSucc, Fin.sum_univ_zero]
  rfl

/-- One grid point's contribution to the projection: the 24 per-step products of a [64,90] slice of the decoder block with a
    [40,90] slice of the weight block, added up from zero, are the double sum over (step, hidden). -/
theorem proj_block (v42 v43 : FVec Ideal S64x24x90 .f32) (x5 : Vec Ideal S40x24x90 .bf16) (p : Fin 64) (j : Fin 40) :
    k0_pay13 (F := Ideal) (k0_pay7 v42 v43) (k0_pay8 x5)
        (k0_pay11 (k0_pay7 v42 v43) (k0_pay8 x5) (k0_pay9 v42 v43 x5) (k0_pay10 v42 v43))
        (k0_pay12 (k0_pay7 v42 v43) (k0_pay8 x5)) (ix2 p j)
      = ∑ s : Fin 24, ∑ h : Fin 90, k0_pay7 (F := Ideal) v42 v43 (ix3 p s h) * x5 (ix3 j s h) := by
  have hB : (k0_pay8 (F := Ideal) x5 : FVec Ideal S40x24x90 .bf16) = x5 := by
    unfold k0_pay8
    exact shapeCast_self x5 shapeCasts_S40x24x90_S40x24x90
  refine (pay13_apply v42 v43 x5 (k0_pay11 (k0_pay7 v42 v43) (k0_pay8 x5) (k0_pay9 v42 v43 x5) (k0_pay10 v42 v43))
    (k0_pay12 (k0_pay7 v42 v43) (k0_pay8 x5)) p j).trans ?_
  rw [pay11_apply v42 v43 x5 (k0_pay9 v42 v43 x5) p j, pay9_apply v42 v43 x5 p j, pay12_apply v42 v43 x5 p j]
  refine (sum24 (dterm (k0_pay7 v42 v43) (k0_pay8 x5) p j)).symm.trans ?_
  rw [hB]
  rfl

end Cert.KernelIdeal.Payload

end
-- ==== Proof.KernelValue.lean ====
/-
  What the idealized kernel's run leaves in its result, as a function of the arguments.

  Fix a batch tile b (64 rows).  Its ten grid points 10b … 10b+9 each add their share of the projection to the
  accumulator, which the first of them resets; so after time tile T the accumulator holds the sum of the shares of
  tiles 0 … T (induction on T), and at T = 9 the output block is that sum plus the output bias.  A share at (p, j) is
  the double sum over the tile's 24 steps and the 90 hidden units of decoder value times output weight; the ten
  shares together are the double sum over all 240 steps.  Hence the output block of batch tile b is rows
  64b … 64b+63 of the logits, the sixteen blocks cover the [1024, 40] array, and the host's softmax lines after the
  call apply to it.
-/
import proofs.«106832_j8718783611481_1_alg».proof.Proof.Pieces
import proofs.«106832_j8718783611481_1_alg».proof.Proof.Blocks
import proofs.«106832_j8718783611481_1_alg».proof.Proof.HostArrays
import proofs.«106832_j8718783611481_1_alg».proof.Proof.KernelDec
import proofs.«106832_j8718783611481_1_alg».proof.Proof.KernelProj
import proofs.«106832_j8718783611481_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.KernelIdeal.Pieces Cert.KernelIdeal.Blocks Cert.KernelIdeal.HostArrays
open Cert.KernelIdeal.Payload

variable (m : (ℓ : Loc nD τ sig) → Buf (Elt Ideal) ℓ) (ρ : Dev nD → PrngReg)

/-! ## The arrays the region finds, as index functions -/

def xeV (c : Dev nD) (r : Fin 1024) (t : Fin 240) (f : Fin 180) : EReal := V m c main_v2 (ix3 r t f)
def w1V (c : Dev nD) (g : Fin 360) (f : Fin 180) : EReal := V m c main_v3 (ix2 g f)
def bEV (c : Dev nD) (g : Fin 360) : EReal := V m c main_v4 (ix1 g)
def w2V (c : Dev nD) (g : Fin 360) (k : Fin 90) : EReal := V m c main_v5 (ix2 g k)
def bDV (c : Dev nD) (g : Fin 360) : EReal := V m c main_v6 (ix1 g)
def woV (c : Dev nD) (j : Fin 40) (t : Fin 240) (h : Fin 90) : EReal := V m c main_v8 (ix3 j t h)
def boV (c : Dev nD) (j : Fin 40) : EReal := V m c main_arg8 (ix1 j)

/-- The logits of those arrays. -/
def logitsV (c : Dev nD) : FVec Ideal S1024x40 .f32 :=
  fun i => Lstm.logits (xeV m c) (w1V m c) (bEV m c) (w2V m c) (bDV m c) (woV m c) (boV m c) (i 0) (i 1)

/-! ## A grid point's blocks and its share -/

abbrev b0 (c : Dev nD) (t : Fin cfg0.N) : Vec Ideal S64x24x180 .bf16 := iblk m c 0 t
abbrev b1 (c : Dev nD) (t : Fin cfg0.N) : Vec Ideal S360x180 .bf16 := iblk m c 1 t
abbrev b2 (c : Dev nD) (t : Fin cfg0.N) : Vec Ideal S360 .f32 := iblk m c 2 t
abbrev b3 (c : Dev nD) (t : Fin cfg0.N) : Vec Ideal S360x90 .bf16 := iblk m c 3 t
abbrev b4 (c : Dev nD) (t : Fin cfg0.N) : Vec Ideal S360 .f32 := iblk m c 4 t
abbrev b5 (c : Dev nD) (t : Fin cfg0.N) : Vec Ideal S40x24x90 .bf16 := iblk m c 5 t
abbrev b6 (c : Dev nD) (t : Fin cfg0.N) : Vec Ideal S40 .f32 := iblk m c 6 t

/-- Point t's share of the projection. -/
def share (c : Dev nD) (t : Fin cfg0.N) : FVec Ideal S64x40 .f32 :=
  partialOf (b0 m c t) (b1 m c t) (b2 m c t) (b3 m c t) (b4 m c t) (b5 m c t)

/-- The share at (p, j): over the point's 24 steps and the 90 hidden units, decoder value times output weight. -/
theorem share_apply (c : Dev nD) (t : Fin cfg0.N) (p : Fin 64) (j : Fin 40) :
    share m c t (ix2 p j)
      = ∑ s : Fin 24, ∑ h : Fin 90,
          Lstm.dec (xeV m c (rowOf t p) (stepOf t s)) (w1V m c) (bEV m c) (w2V m c) (bDV m c) h * woV m c j (stepOf t s) h := by
  unfold share partialOf
  refine (proj_block (k0_pay5 (b0 m c t) (b1 m c t) (b2 m c t) (b3 m c t) (b4 m c t))
    (k0_pay6 (b0 m c t) (b1 m c t) (b2 m c t) (b3 m c t) (b4 m c t)) (b5 m c t) p j).trans ?_
  refine Finset.sum_congr rfl fun s _ => Finset.sum_congr rfl fun h _ => ?_
  have e0 : (fun f => b0 m c t (ix3 p s f)) = xeV m c (rowOf t p) (stepOf t s) := funext fun f => blk0 m c t p s f
  have e1 : (fun g f => b1 m c t (ix2 g f)) = w1V m c := funext fun g => funext fun f => blk1 m c t g f
  have e2 : (fun g => b2 m c t (ix1 g)) = bEV m c := funext fun g => blk2 m c t g
  have e3 : (fun g k => b3 m c t (ix2 g k)) = w2V m c := funext fun g => funext fun k => blk3 m c t g k
  have e4 : (fun g => b4 m c t (ix1 g)) = bDV m c := funext fun g => blk4 m c t g
  have e5 : b5 m c t (ix3 j s h) = woV m c j (stepOf t s) h := blk5 m c t j s h
  rw [dec_block (b0 m c t) (b1 m c t) (b2 m c t) (b3 m c t) (b4 m c t) p s h, e0, e1, e2, e3, e4, e5]

/-! ## The three small payloads at an entry -/

theorem pay1_apply (a : FVec Ideal S64x40 .f32) (b : Vec Ideal S64x40 .f32) (y : S64x40.Idx) :
    k0_pay1 (F := Ideal) a b y = b y + a y := by
  unfold k0_pay1
  rw [shapeCast_self]
  rfl

theorem pay3_apply (y : S64x40.Idx) : k0_pay3 (F := Ideal) y = 0 := by
  unfold k0_pay3
  rw [shapeCast_self]
  exact Ideal.ofBits_zero_f32

theorem pay2_apply (a : Vec Ideal S64x40 .f32) (x6 : Vec Ideal S40 .f32) (p : Fin 64) (j : Fin 40) :
    k0_pay2 (F := Ideal) a x6 (ix2 p j) = a (ix2 p j) + x6 (ix1 j) := by
  unfold k0_pay2
  rw [addf_apply, broadcastTo_1b_ab_apply, shapeCast_a_1a_apply]

/-! ## The accumulator after each point of a batch tile -/

/-- A point's share by its position in the grid's order (zero past the grid). -/
def shN (c : Dev nD) (n : ℕ) (y : S64x40.Idx) : EReal :=
  if h : n < cfg0.N then share m c ⟨n, h⟩ y else 0

theorem outsAt_congr (c : Dev nD) {n n' : ℕ} (e : n = n') (h : n < cfg0.N) (h' : n' < cfg0.N) :
    outsAt0 m c n h = outsAt0 m c n' h' := by
  subst e
  rfl

/-- After time tile T of batch tile b the accumulator holds the shares of tiles 0 … T. -/
theorem scratch_eq (c : Dev nD) (b : ℕ) (hb : b < 16) (y : S64x40.Idx) :
    ∀ (T : ℕ) (hT : T < 10),
      (outsAt0 m c (10 * b + T) (by rw [N160]; omega)).2 y = ∑ T' ∈ Finset.range (T + 1), shN m c (10 * b + T') y := by
  intro T
  induction T with
  | zero =>
    intro hT
    have hn : 10 * b + 0 < cfg0.N := by rw [N160]; omega
    let t : Fin cfg0.N := ⟨10 * b + 0, hn⟩
    have h0 : t.val % 10 = 0 := by show (10 * b + 0) % 10 = 0; omega
    have h1 : ¬t.val % 10 = 9 := by show ¬(10 * b + 0) % 10 = 9; omega
    show (outsAt0 m c t.val t.isLt).2 y = _
    rw [outsAt0_A m c t h0 h1]
    dsimp only
    refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (b0 m c t) (b1 m c t) (b2 m c t) (b3 m c t) (b4 m c t) (b5 m c t) (b6 m c t) ((hcond0_0 t).mpr h0) (fun h => h1 ((hcond0_1 t).mp h))) y).trans ?_
    rw [pay1_apply, pay3_apply, zero_add, Finset.sum_range_one, shN, dif_pos hn]
    rfl
  | succ T ih =>
    intro hT
    have hn : 10 * b + (T + 1) < cfg0.N := by rw [N160]; omega
    let t : Fin cfg0.N := ⟨10 * b + (T + 1), hn⟩
    have h0 : ¬t.val % 10 = 0 := by show ¬(10 * b + (T + 1)) % 10 = 0; omega
    have hprev : (outsAt0 m c (t.val - 1) (Nat.lt_of_le_of_lt (Nat.sub_le _ _) t.isLt)).2 y
        = ∑ T' ∈ Finset.range (T + 1), shN m c (10 * b + T') y := ih (by omega)
    show (outsAt0 m c t.val t.isLt).2 y = _
    rw [Finset.sum_range_succ, ← hprev]
    by_cases h1 : t.val % 10 = 9
    · rw [outsAt0_C m c t h0 h1]
      dsimp only
      refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (b0 m c t) (b1 m c t) (b2 m c t) (b3 m c t) (b4 m c t) (b5 m c t) (b6 m c t)
        (outsAt0 m c (t.val - 1) (Nat.lt_of_le_of_lt (Nat.sub_le _ _) t.isLt)).2
        (fun h => h0 ((hcond0_0 t).mp h)) ((hcond0_1 t).mpr h1)) y).trans ?_
      rw [pay1_apply, shN, dif_pos hn]
      rfl
    · rw [outsAt0_B m c t h0 h1]
      dsimp only
      refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (b0 m c t) (b1 m c t) (b2 m c t) (b3 m c t) (b4 m c t) (b5 m c t) (b6 m c t)
        (outsAt0 m c (t.val - 1) (Nat.lt_of_le_of_lt (Nat.sub_le _ _) t.isLt)).2
        (fun h => h0 ((hcond0_0 t).mp h)) (fun h => h1 ((hcond0_1 t).mp h))) y).trans ?_
      rw [pay1_apply, shN, dif_pos hn]
      rfl

/-! ## The output block of a batch tile -/

/-- The ten shares of a batch tile at (p, j) are the double sum over all 240 time steps. -/
theorem shares_sum (c : Dev nD) (b : ℕ) (hb : b < 16) (p : Fin 64) (j : Fin 40) :
    ∑ T' ∈ Finset.range 10, shN m c (10 * b + T') (ix2 p j)
      = ∑ t : Fin 240, ∑ h : Fin 90,
          Lstm.dec (xeV m c ⟨64 * b + p.val, by have := p.isLt; omega⟩ t) (w1V m c) (bEV m c) (w2V m c) (bDV m c) h * woV m c j t h := by
  rw [Lstm.sum_fin_240, Finset.sum_range]
  refine Finset.sum_congr rfl fun T _ => ?_
  have hn : 10 * b + T.val < cfg0.N := by rw [N160]; have := T.isLt; omega
  rw [shN, dif_pos hn, share_apply]
  have hr : rowOf ⟨10 * b + T.val, hn⟩ p = ⟨64 * b + p.val, by have := p.isLt; omega⟩ := by
    apply Fin.ext
    show 64 * ((10 * b + T.val) / 10) + p.val = 64 * b + p.val
    have := T.isLt
    omega
  have hs : ∀ s : Fin 24, stepOf ⟨10 * b + T.val, hn⟩ s = ⟨T.val * 24 + s.val, by have := T.isLt; have := s.isLt; omega⟩ := fun s => by
    apply Fin.ext
    show 24 * ((10 * b + T.val) % 10) + s.val = T.val * 24 + s.val
    have := T.isLt
    omega
  refine Finset.sum_congr rfl fun s _ => ?_
  rw [hr, hs s]

/-- At the last time tile of batch tile t / 10 the output block is rows 64·(t/10) … of the logits. -/
theorem outblock_eq (c : Dev nD) (t : Fin cfg0.N) (h9 : t.val % 10 = 9) (p : Fin 64) (j : Fin 40) :
    (outsAt0 m c t.val t.isLt).1 (ix2 p j) = logitsV m c (ix2 (rowOf t p) j) := by
  have hN := N160
  have htl := t.isLt
  have h0 : ¬t.val % 10 = 0 := by omega
  have hb : t.val / 10 < 16 := by omega
  have hn8 : 10 * (t.val / 10) + 8 < cfg0.N := by omega
  rw [outsAt0_C m c t h0 h9]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (b0 m c t) (b1 m c t) (b2 m c t) (b3 m c t) (b4 m c t) (b5 m c t) (b6 m c t)
    (outsAt0 m c (t.val - 1) (Nat.lt_of_le_of_lt (Nat.sub_le _ _) t.isLt)).2
    (fun h => h0 ((hcond0_0 t).mp h)) ((hcond0_1 t).mpr h9)) (ix2 p j)).trans ?_
  rw [pay2_apply, pay1_apply]
  have hprev : (outsAt0 m c (t.val - 1) (Nat.lt_of_le_of_lt (Nat.sub_le _ _) t.isLt)).2 (ix2 p j)
      = ∑ T' ∈ Finset.range 9, shN m c (10 * (t.val / 10) + T') (ix2 p j) := by
    rw [outsAt_congr m c (show t.val - 1 = 10 * (t.val / 10) + 8 by omega) _ hn8]
    exact scratch_eq m c (t.val / 10) hb (ix2 p j) 8 (by omega)
  have hlast : partialOf (b0 m c t) (b1 m c t) (b2 m c t) (b3 m c t) (b4 m c t) (b5 m c t) (ix2 p j)
      = shN m c (10 * (t.val / 10) + 9) (ix2 p j) := by
    have hn9 : 10 * (t.val / 10) + 9 < cfg0.N := by omega
    have ht : (⟨10 * (t.val / 10) + 9, hn9⟩ : Fin cfg0.N) = t := Fin.ext (by show 10 * (t.val / 10) + 9 = t.val; omega)
    rw [shN, dif_pos hn9, ht]
    rfl
  have e6 : b6 m c t (ix1 j) = boV m c j := blk6 m c t j
  rw [hprev, hlast, ← Finset.sum_range_succ, shares_sum m c (t.val / 10) hb p j, e6]
  rfl

/-- The same at any entry of the block. -/
theorem outblock_eq' (c : Dev nD) (t : Fin cfg0.N) (h9 : t.val % 10 = 9) (y : S64x40.Idx) :
    (outsAt0 m c t.val t.isLt).1 y = logitsV m c (ix2 (rowOf t (y 0)) (y 1)) := by
  obtain ⟨p, j, rfl⟩ : ∃ (p : Fin 64) (j : Fin 40), y = ix2 p j := ⟨y 0, y 1, eq_ix2 y⟩
  exact outblock_eq m c t h9 p j

/-! ## The result array of the call -/

/-- What the flushing point t writes back is block t of the logits. -/
theorem flushed_eq (c : Dev nD) (t : Fin cfg0.N) (hf : (cfg0.win 7).flush t = true) :
    (dats m 0 c).flushed 7 t = ((cfg0.win 7).blk t).view.read (Elt Ideal) (logitsV m c) := by
  have h9 : t.val % 10 = 9 := (flush0_7 t).mp hf
  obtain ⟨-, -, -, -, -, -, -, -, -, -, -, -, -, e0, e1⟩ := idx_facts t
  show (cfg0.win 7).cut (grid0.coords t) ((dats m 0 c).after 7 t) = _
  rw [after0_7]
  funext y
  show (outsAt0 m c t.val t.isLt).1 y = logitsV m c (((cfg0.win 7).blk t).view.emb y)
  refine (outblock_eq' m c t h9 y).trans ?_
  congr 1
  funext a
  apply Fin.ext
  match a with
  | ⟨0, _⟩ => show 64 * (t.val / 10) + (y 0).val = win0_7.index t (0 : Fin 2) * 64 + 1 * (y 0).val; rw [e0]; omega
  | ⟨1, _⟩ => show (y 1).val = win0_7.index t (1 : Fin 2) * 40 + 1 * (y 1).val; rw [e1]; omega

/-- An index of the logits array is in point t's block iff each coordinate is in the block's range on its axis. -/
theorem mem_blk (t : Fin cfg0.N) (i : S1024x40.Idx) :
    i ∈ ((cfg0.win 7).blk t).view.set
      ↔ ∀ a : Fin 2, win0_7.index t a * S64x40.size a ≤ (i a).val ∧ (i a).val < win0_7.index t a * S64x40.size a + S64x40.size a := by
  show i ∈ ((View.whole main_v9).slice (win0_7.rect t)).set ↔ _
  rw [View.set_slice_whole, Rect.mem_set_unit]
  exact Iff.rfl

/-- The sixteen flushed blocks cover the array, so it ends holding the logits. -/
theorem final (c : Dev nD) : (dats m 0 c).arrAt 7 cfg0.N = logitsV m c :=
  (dats m 0 c).arrAt_eq_of_cover 7 (logitsV m c) (flushed_eq m c) fun i => by
    have hN := N160
    have hi0 : (i 0).val < 1024 := (i 0).isLt
    have hi1 : (i 1).val < 40 := (i 1).isLt
    have hn : 10 * ((i 0).val / 64) + 9 < cfg0.N := by omega
    refine ⟨⟨10 * ((i 0).val / 64) + 9, hn⟩, (flush0_7 _).mpr (by show (10 * ((i 0).val / 64) + 9) % 10 = 9; omega), ?_⟩
    obtain ⟨-, -, -, -, -, -, -, -, -, -, -, -, -, e0, e1⟩ := idx_facts ⟨10 * ((i 0).val / 64) + 9, hn⟩
    rw [mem_blk]
    intro a
    match a with
    | ⟨0, _⟩ =>
      show win0_7.index ⟨10 * ((i 0).val / 64) + 9, hn⟩ (0 : Fin 2) * 64 ≤ (i 0).val
        ∧ (i 0).val < win0_7.index ⟨10 * ((i 0).val / 64) + 9, hn⟩ (0 : Fin 2) * 64 + 64
      rw [e0]
      show (10 * ((i 0).val / 64) + 9) / 10 * 64 ≤ (i 0).val ∧ (i 0).val < (10 * ((i 0).val / 64) + 9) / 10 * 64 + 64
      omega
    | ⟨1, _⟩ =>
      show win0_7.index ⟨10 * ((i 0).val / 64) + 9, hn⟩ (1 : Fin 2) * 40 ≤ (i 1).val
        ∧ (i 1).val < win0_7.index ⟨10 * ((i 0).val / 64) + 9, hn⟩ (1 : Fin 2) * 40 + 40
      rw [e1]
      omega

/-! ## The host's lines after the call -/

/-- The softmax over groups of ten, as the host computes it from the [1024, 40] logits: re-laid to [1024, 4, 10]; the
    group maximum subtracted; the exponentials divided by their group sum. -/
def tail (L : FVec Ideal S1024x40 .f32) : FVec Ideal S1024x4x10 .f32 :=
  Host.divf
    (Host.exp (subf (shapeCast S1024x4x10 L shapeCasts_S1024x40_S1024x4x10)
      (broadcastInDim S1024x4x10 ![0, 1, 2] bcast_S1024x4x1_S1024x4x10_0_1_2
        (broadcastInDim S1024x4x1 ![0, 1] bcast_S1024x4_S1024x4x1_0_1
          (maximumf (broadcastInDim S1024x4 ![] bcast_S_S1024x4 (constant (F := Ideal) S_ .f32 0xFF800000#32))
            (Host.reduce FloatOps.maximumf (shapeCast S1024x4x10 L shapeCasts_S1024x40_S1024x4x10)
              (constant (F := Ideal) S_ .f32 0xFF800000#32) reducesTo_S1024x4x10_S1024x4_d2 h_S_))))))
    (broadcastInDim S1024x4x10 ![0, 1, 2] bcast_S1024x4x1_S1024x4x10_0_1_2
      (broadcastInDim S1024x4x1 ![0, 1] bcast_S1024x4_S1024x4x1_0_1
        (Host.reduceAdd
          (Host.exp (subf (shapeCast S1024x4x10 L shapeCasts_S1024x40_S1024x4x10)
            (broadcastInDim S1024x4x10 ![0, 1, 2] bcast_S1024x4x1_S1024x4x10_0_1_2
              (broadcastInDim S1024x4x1 ![0, 1] bcast_S1024x4_S1024x4x1_0_1
                (maximumf (broadcastInDim S1024x4 ![] bcast_S_S1024x4 (constant (F := Ideal) S_ .f32 0xFF800000#32))
                  (Host.reduce FloatOps.maximumf (shapeCast S1024x4x10 L shapeCasts_S1024x40_S1024x4x10)
                    (constant (F := Ideal) S_ .f32 0xFF800000#32) reducesTo_S1024x4x10_S1024x4_d2 h_S_))))))
          (constant (F := Ideal) S_ .f32 0x00000000#32) reducesTo_S1024x4x10_S1024x4_d2 h_S_)))

/-- After the host's lines the result buffer holds the softmax of the logits. -/
theorem tail_eq (c : Dev nD) :
    Pipeline.afterTail₀ cfgs (dats m) 0 (V0 m) [hostOps1] c main_v21 = tail (logitsV m c) := by
  have hw : Pipeline.withArrays spec0 c (V0 m c) (fun w => (dats m 0 c).arrAt w cfg0.N) (Proc.devRef .tc main_v9) = logitsV m c :=
    (Pipeline.withArrays_arr spec0 launch0.win.arr_inj c _ _ 7).trans (final m c)
  unfold Pipeline.afterTail₀
  show StableHlo.after hostOps1 _ (Proc.devRef .tc main_v21) = _
  after_results
  rw [hw]
  rfl

/-! ## The logits in the program's arguments, and the run -/

/-- The logits as a function of the program's arguments. -/
def logitsArgs (c : Dev nD) : FVec Ideal S1024x40 .f32 :=
  fun i => Lstm.logits (fun r t f => relaid m c (ix3 r t f)) (fun g f => arg1 m c (ix2 g f))
    (fun g => arg2 m c (ix1 g) + arg3 m c (ix1 g)) (fun g k => arg4 m c (ix2 g k)) (fun g => arg5 m c (ix1 g) + arg6 m c (ix1 g))
    (fun j t h => arg7 m c (ix2 j (⟨t.val * 90 + h.val, by have := t.isLt; have := h.isLt; omega⟩ : Fin 21600)))
    (fun j => arg8 m c (ix1 j)) (i 0) (i 1)

theorem logitsV_eq (c : Dev nD) : logitsV m c = logitsArgs m c := by
  have e0 : xeV m c = fun r t f => relaid m c (ix3 r t f) := funext fun r => funext fun t => funext fun f => v2_eq m c _
  have e1 : w1V m c = fun g f => arg1 m c (ix2 g f) := funext fun g => funext fun f => v3_eq m c _
  have e2 : bEV m c = fun g => arg2 m c (ix1 g) + arg3 m c (ix1 g) := funext fun g => v4_eq m c _
  have e3 : w2V m c = fun g k => arg4 m c (ix2 g k) := funext fun g => funext fun k => v5_eq m c _
  have e4 : bDV m c = fun g => arg5 m c (ix1 g) + arg6 m c (ix1 g) := funext fun g => v6_eq m c _
  have e5 : woV m c = fun j t h => arg7 m c (ix2 j (⟨t.val * 90 + h.val, by have := t.isLt; have := h.isLt; omega⟩ : Fin 21600)) :=
    funext fun j => funext fun t => funext fun h => v8_eq m c j t h
  have e6 : boV m c = fun j => arg8 m c (ix1 j) := funext fun j => a8_eq m c _
  unfold logitsV logitsArgs
  rw [e0, e1, e2, e3, e4, e5, e6]

/-- Every weakly fair execution of the idealized kernel program ends with the result buffer at the softmax of the logits of
    its arguments, and the arguments unchanged. -/
theorem run : θ_run defs (onTc (τ := τ) (main (F := Ideal))) ⟨m, fun _ => 0, ρ⟩ fun r => ∀ c : Dev nD,
      r.2.mem ((c.tc : Thread nD τ).loc main_v21) = tail (logitsArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v21 (Pipeline.mem_restRefs_of main_v21 (by decide) (by decide))).trans
        ((tail_eq m c).trans (congrArg tail (logitsV_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 6).trans (((dats m 0 c).arrAt_in 6 rfl _).trans ((A_eq m c 6).trans (V_main_arg8 m c)))⟩)
    (run_main m ρ)

end Cert.KernelIdeal.KValue

end
-- ==== Proof.RefDec.lean ====
import proofs.«106832_j8718783611481_1_alg».proof.Proof.Gen.ReferenceIdeal.Read
import proofs.«106832_j8718783611481_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.ReferenceIdeal.RefValue

open Cert.ReferenceIdeal Cert.ReferenceIdeal.Read

/-- The single-precision word 0x3F800000 denotes the real number one. -/
theorem one_bits : Ideal.ofBits .f32 0x3F800000#32 = 1 := by
  simp [Ideal.ofBits, Ideal.ieee, -EReal.coe_mul]; norm_num

/-- The host's spelling 1 / (1 + exp (−y)), with both ones given by their words, is the logistic function of y. -/
theorem host_sigmoid (y : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) y)))
      = Ideal.logistic y := by
  show Ideal.div (Ideal.ofBits .f32 0x3F800000#32) (Ideal.ofBits .f32 0x3F800000#32 + Ideal.exp (-y)) = Ideal.logistic y
  rw [one_bits]
  rfl

/-- The encoder's pre-activations: the input row against weight row g plus the two biases one after the other, which is
    the summed bias added once. -/
theorem v8_gate (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (r : Fin 1024) (t : Fin 240) (g : Fin 360) :
    val_main_v8 (F := Ideal) x0 x1 x2 x3 (ix3 r t g)
      = Lstm.gate (fun f => val_main_v1 (F := Ideal) x0 (ix3 r t f)) (fun g f => x1 (ix2 g f)) (fun g => x2 (ix1 g) + x3 (ix1 g)) g := by
  rw [val_main_v8_apply, val_main_v5_apply, val_main_v2_apply, val_main_v4_apply, val_main_v3_apply, val_main_v7_apply, val_main_v6_apply]
  unfold Lstm.gate
  have el : ∀ k : Fin 180, lidx_main_v2 (ix3 r t g) k = ix3 r t k := fun k => funext fun a => Fin.ext (by
    match a with | ⟨0, _⟩ => rfl | ⟨1, _⟩ => rfl | ⟨2, _⟩ => rfl)
  have er : ∀ k : Fin 180, ridx_main_v2 (ix3 r t g) k = ix2 g k := fun k => funext fun a => Fin.ext (by
    match a with | ⟨0, _⟩ => rfl | ⟨1, _⟩ => rfl)
  have e2 : idx_main_v3 (idx_main_v4 (ix3 r t g)) = ix1 g := funext fun a => Fin.ext (by
    match a with | ⟨0, _⟩ => rfl)
  have e3 : idx_main_v6 (idx_main_v7 (ix3 r t g)) = ix1 g := funext fun a => Fin.ext (by
    match a with | ⟨0, _⟩ => rfl)
  simp only [el, er, e2, e3]
  exact add_assoc _ _ _

/-- The encoder's cell: entry (r, t, k) of σ(slice at 270) · tanh(σ(slice at 0) · tanh(slice at 180)) is the zero-state
    cell of the row (r, t) of pre-activations. -/
theorem v28_cell (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (r : Fin 1024) (t : Fin 240) (k : Fin 90) :
    val_main_v28 (F := Ideal) x0 x1 x2 x3 (ix3 r t k)
      = Lstm.cell (fun g => val_main_v8 (F := Ideal) x0 x1 x2 x3 (ix3 r t g)) k := by
  rw [val_main_v28_apply, val_main_v26_apply, val_main_v27_apply, val_main_v25_apply, val_main_cst_2_apply,
    val_main_v24_apply, val_main_v23_apply, val_main_cst_1_apply, val_main_v22_apply, val_main_v21_apply,
    val_main_v12_apply, val_main_v20_apply, val_main_v18_apply, val_main_v19_apply, val_main_v17_apply,
    val_main_cst_0_apply, val_main_v16_apply, val_main_v15_apply, val_main_cst_apply, val_main_v14_apply,
    val_main_v13_apply, val_main_v9_apply, val_main_v11_apply, host_sigmoid, host_sigmoid]
  have ei : idx_main_v9 (ix3 r t k) = ix3 r t (Lstm.gi k) := funext fun a => Fin.ext (by
    match a with | ⟨0, _⟩ => rfl | ⟨1, _⟩ => rfl | ⟨2, _⟩ => rfl)
  have eg : idx_main_v11 (ix3 r t k) = ix3 r t (Lstm.gg k) := funext fun a => Fin.ext (by
    match a with | ⟨0, _⟩ => rfl | ⟨1, _⟩ => rfl | ⟨2, _⟩ => rfl)
  have eo : idx_main_v12 (ix3 r t k) = ix3 r t (Lstm.go k) := funext fun a => Fin.ext (by
    match a with | ⟨0, _⟩ => rfl | ⟨1, _⟩ => rfl | ⟨2, _⟩ => rfl)
  rw [ei, eg, eo]
  rfl

/-- The encoder's hidden value: one more σ over the cell. -/
theorem v34_enc (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (r : Fin 1024) (t : Fin 240) (k : Fin 90) :
    val_main_v34 (F := Ideal) x0 x1 x2 x3 (ix3 r t k)
      = Ideal.logistic (val_main_v28 (F := Ideal) x0 x1 x2 x3 (ix3 r t k)) := by
  rw [val_main_v34_apply, val_main_v33_apply, val_main_cst_4_apply, val_main_v32_apply, val_main_v31_apply,
    val_main_cst_3_apply, val_main_v30_apply, val_main_v29_apply, host_sigmoid]

/-- The decoder's pre-activations: the encoder row against weight row g plus the two biases one after the other. -/
theorem v41_gate (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (x4 : (⟨S360x90, .f32⟩ : BufTy).Contents (Elt Ideal)) (x5 x6 : (⟨S360, .f32⟩ : BufTy).Contents (Elt Ideal)) (r : Fin 1024) (t : Fin 240) (g : Fin 360) :
    val_main_v41 (F := Ideal) x0 x1 x2 x3 x4 x5 x6 (ix3 r t g)
      = Lstm.gate (fun k => val_main_v34 (F := Ideal) x0 x1 x2 x3 (ix3 r t k)) (fun g k => x4 (ix2 g k))
          (fun g => x5 (ix1 g) + x6 (ix1 g)) g := by
  rw [val_main_v41_apply, val_main_v38_apply, val_main_v35_apply, val_main_v37_apply, val_main_v36_apply,
    val_main_v40_apply, val_main_v39_apply]
  unfold Lstm.gate
  have el : ∀ k : Fin 90, lidx_main_v35 (ix3 r t g) k = ix3 r t k := fun k => funext fun a => Fin.ext (by
    match a with | ⟨0, _⟩ => rfl | ⟨1, _⟩ => rfl | ⟨2, _⟩ => rfl)
  have er : ∀ k : Fin 90, ridx_main_v35 (ix3 r t g) k = ix2 g k := fun k => funext fun a => Fin.ext (by
    match a with | ⟨0, _⟩ => rfl | ⟨1, _⟩ => rfl)
  have e2 : idx_main_v36 (idx_main_v37 (ix3 r t g)) = ix1 g := funext fun a => Fin.ext (by
    match a with | ⟨0, _⟩ => rfl)
  have e3 : idx_main_v39 (idx_main_v40 (ix3 r t g)) = ix1 g := funext fun a => Fin.ext (by
    match a with | ⟨0, _⟩ => rfl)
  simp only [el, er, e2, e3]
  exact add_assoc _ _ _

/-- The decoder's cell over its row of pre-activations. -/
theorem v61_cell (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (x4 : (⟨S360x90, .f32⟩ : BufTy).Contents (Elt Ideal)) (x5 x6 : (⟨S360, .f32⟩ : BufTy).Contents (Elt Ideal)) (r : Fin 1024) (t : Fin 240) (h : Fin 90) :
    val_main_v61 (F := Ideal) x0 x1 x2 x3 x4 x5 x6 (ix3 r t h)
      = Lstm.cell (fun g => val_main_v41 (F := Ideal) x0 x1 x2 x3 x4 x5 x6 (ix3 r t g)) h := by
  rw [val_main_v61_apply, val_main_v59_apply, val_main_v60_apply, val_main_v58_apply, val_main_cst_8_apply,
    val_main_v57_apply, val_main_v56_apply, val_main_cst_7_apply, val_main_v55_apply, val_main_v54_apply,
    val_main_v45_apply, val_main_v53_apply, val_main_v51_apply, val_main_v52_apply, val_main_v50_apply,
    val_main_cst_6_apply, val_main_v49_apply, val_main_v48_apply, val_main_cst_5_apply, val_main_v47_apply,
    val_main_v46_apply, val_main_v42_apply, val_main_v44_apply, host_sigmoid, host_sigmoid]
  have ei : idx_main_v42 (ix3 r t h) = ix3 r t (Lstm.gi h) := funext fun a => Fin.ext (by
    match a with | ⟨0, _⟩ => rfl | ⟨1, _⟩ => rfl | ⟨2, _⟩ => rfl)
  have eg : idx_main_v44 (ix3 r t h) = ix3 r t (Lstm.gg h) := funext fun a => Fin.ext (by
    match a with | ⟨0, _⟩ => rfl | ⟨1, _⟩ => rfl | ⟨2, _⟩ => rfl)
  have eo : idx_main_v45 (ix3 r t h) = ix3 r t (Lstm.go h) := funext fun a => Fin.ext (by
    match a with | ⟨0, _⟩ => rfl | ⟨1, _⟩ => rfl | ⟨2, _⟩ => rfl)
  rw [ei, eg, eo]
  rfl

/-- The reference's decoder values: entry (r, t, h) is the two-cell function of the re-laid input's row (r, t); its two biases
    per layer are added one after the other, which is the sum of the two added once. -/
theorem dec_ref (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (x4 : (⟨S360x90, .f32⟩ : BufTy).Contents (Elt Ideal)) (x5 x6 : (⟨S360, .f32⟩ : BufTy).Contents (Elt Ideal)) (r : Fin 1024) (t : Fin 240) (h : Fin 90) :
    val_main_v61 (F := Ideal) x0 x1 x2 x3 x4 x5 x6 (ix3 r t h)
      = Lstm.dec (fun f => val_main_v1 (F := Ideal) x0 (ix3 r t f)) (fun g f => x1 (ix2 g f)) (fun g => x2 (ix1 g) + x3 (ix1 g))
          (fun g k => x4 (ix2 g k)) (fun g => x5 (ix1 g) + x6 (ix1 g)) h := by
  have henc : (fun k : Fin 90 => val_main_v34 (F := Ideal) x0 x1 x2 x3 (ix3 r t k))
      = Lstm.enc (fun f => val_main_v1 (F := Ideal) x0 (ix3 r t f)) (fun g f => x1 (ix2 g f)) (fun g => x2 (ix1 g) + x3 (ix1 g)) := by
    funext k
    rw [v34_enc, v28_cell]
    unfold Lstm.enc
    exact congrArg (fun G => Ideal.logistic (Lstm.cell G k)) (funext fun g => v8_gate x0 x1 x2 x3 r t g)
  rw [v61_cell]
  unfold Lstm.dec
  refine congrArg (fun G => Lstm.cell G h) (funext fun g => ?_)
  rw [v41_gate, henc]

end Cert.ReferenceIdeal.RefValue

end
-- ==== Proof.RefLogits.lean ====
import proofs.«106832_j8718783611481_1_alg».proof.Proof.RefDec
import proofs.«106832_j8718783611481_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.ReferenceIdeal.RefValue

open Cert.ReferenceIdeal Cert.ReferenceIdeal.Read

/-- Row r of the reshaped decoder array at flat position t·90 + h reads the decoder array at (r, t, h). -/
theorem idx62_flat (i : S1024x40.Idx) (t : Fin 240) (h : Fin 90) (hk : t.val * 90 + h.val < 21600) :
    idx_main_v62 (lidx_main_v64 i (⟨t.val * 90 + h.val, hk⟩ : Fin 21600)) = ix3 (i 0) t h := by
  have h0 : (i 0).val < 1024 := (i 0).isLt
  have ht : t.val < 240 := t.isLt
  have hh : h.val < 90 := h.isLt
  funext a
  match a with
  | ⟨0, _⟩ => exact Fin.ext (by show ((i 0).val * 21600 + (t.val * 90 + h.val)) / 21600 = (i 0).val; omega)
  | ⟨1, _⟩ => exact Fin.ext (by show ((i 0).val * 21600 + (t.val * 90 + h.val)) / 90 % 240 = t.val; omega)
  | ⟨2, _⟩ => exact Fin.ext (by show ((i 0).val * 21600 + (t.val * 90 + h.val)) % 90 = h.val; omega)

/-- The transposed output weights at (k, j) read the output weights at (j, k). -/
theorem idx63_flat (i : S1024x40.Idx) (k : Fin 21600) :
    idx_main_v63 (ridx_main_v64 i k) = ix2 (i 1) k := by
  funext a
  match a with
  | ⟨0, _⟩ => exact Fin.ext rfl
  | ⟨1, _⟩ => exact Fin.ext rfl

/-- The broadcast output bias at (r, j) reads the bias at j. -/
theorem idx65_flat (i : S1024x40.Idx) :
    idx_main_v65 (idx_main_v66 i) = ix1 (i 1) := by
  funext a
  match a with
  | ⟨0, _⟩ => exact Fin.ext rfl

/-- The reference's logits: the contraction over the flattened (time, hidden) axis against the transposed output weights is
    the double sum over (time, hidden). -/
theorem logits_ref (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (x4 : (⟨S360x90, .f32⟩ : BufTy).Contents (Elt Ideal)) (x5 x6 : (⟨S360, .f32⟩ : BufTy).Contents (Elt Ideal)) (x7 : (⟨S40x21600, .f32⟩ : BufTy).Contents (Elt Ideal)) (x8 : (⟨S40, .f32⟩ : BufTy).Contents (Elt Ideal)) (i : S1024x40.Idx) :
    val_main_v67 (F := Ideal) x0 x1 x2 x3 x4 x5 x6 x7 x8 i
      = Lstm.logits (fun r t f => val_main_v1 (F := Ideal) x0 (ix3 r t f)) (fun g f => x1 (ix2 g f)) (fun g => x2 (ix1 g) + x3 (ix1 g))
          (fun g k => x4 (ix2 g k)) (fun g => x5 (ix1 g) + x6 (ix1 g))
          (fun j t h => x7 (ix2 j (⟨t.val * 90 + h.val, by have := t.isLt; have := h.isLt; omega⟩ : Fin 21600))) (fun j => x8 (ix1 j)) (i 0) (i 1) := by
  rw [val_main_v67_apply, val_main_v64_apply, val_main_v66_apply, val_main_v65_apply, idx65_flat, Lstm.sum_fin_21600]
  unfold Lstm.logits
  rw [Ideal.addf_def]
  refine congrArg (· + x8 (ix1 (i 1))) ?_
  refine Finset.sum_congr rfl fun t _ => Finset.sum_congr rfl fun h _ => ?_
  rw [val_main_v62_apply, val_main_v63_apply, idx62_flat, idx63_flat]
  exact congrArg (· * x7 (ix2 (i 1) (⟨t.val * 90 + h.val, by have := t.isLt; have := h.isLt; omega⟩ : Fin 21600)))
    (dec_ref x0 x1 x2 x3 x4 x5 x6 (i 0) t h)

end Cert.ReferenceIdeal.RefValue

end
-- ==== Proof.lean ====
/-
  The kernel computes, for each of 1024 batch rows and 240 time steps independently, two zero-state LSTM cells
  (an encoder, one more sigmoid, a decoder), contracts the decoder's values over (time, hidden) with the output
  weights into 40 logits per row, and the host takes a softmax over groups of ten.  The reference does the same with
  whole-array operations.  Over the extended reals the two agree:

    * a change of float format is the identity, so the kernel's bf16 roundings vanish;
    * the kernel's sigmoid and the reference's 1 / (1 + exp(-x)) are one function by definition;
    * the kernel adds each layer's two biases first and the reference adds them one after the other: associativity;
    * the kernel accumulates the projection tile by tile (16 batch tiles, 10 time tiles of 24 steps, each step a
      contraction over the 90 hidden units) while the reference contracts the flattened axis of length 21600 at
      once: one finite sum, re-indexed and re-grouped;
    * the softmax lines are the same text in both programs, applied to equal logits.

  No law used needs finiteness, so the precondition is not opened.  The three frames are the generated ones (the
  reference's is its generated run with the result dropped), and the idealization rewrote nothing.
-/
import proofs.«106832_j8718783611481_1_alg».proof.Defs
import proofs.«106832_j8718783611481_1_alg».proof.Proof.Gen.Kernel
import proofs.«106832_j8718783611481_1_alg».proof.Proof.Gen.Kernel.Frame
import proofs.«106832_j8718783611481_1_alg».proof.Proof.Gen.KernelIdeal
import proofs.«106832_j8718783611481_1_alg».proof.Proof.Gen.KernelIdeal.Frame
import proofs.«106832_j8718783611481_1_alg».proof.Proof.Gen.ReferenceIdeal
import proofs.«106832_j8718783611481_1_alg».proof.Proof.Gen.Pre_finite_inputs
import proofs.«106832_j8718783611481_1_alg».proof.Proof.Gen.ReferenceIdeal.Run
import proofs.«106832_j8718783611481_1_alg».proof.Proof.Gen.ReferenceIdeal.Read
import proofs.«106832_j8718783611481_1_alg».proof.Proof.KernelValue
import proofs.«106832_j8718783611481_1_alg».proof.Proof.RefLogits
import Idealize.ShloMosaic.Adequacy
import Idealize.ShloMosaic.Init

noncomputable section

open Idealize.ShloMosaic Idealize.ShloMosaic.TcCoe Idealize.SL.Sem Idealize.ShloMosaic.ValueIdx

namespace Cert.Proof.Bridge

open Cert.ReferenceIdeal Cert.ReferenceIdeal.Read Cert.ReferenceIdeal.RefValue

/-- The reference's result is the host softmax of its logits: the same lines as after the kernel's call. -/
theorem ref_result (x0 : (⟨S1024x3x60x240, .f32⟩ : BufTy).Contents (Elt Ideal)) (x1 : (⟨S360x180, .f32⟩ : BufTy).Contents (Elt Ideal)) (x2 x3 : (⟨S360, .f32⟩ : BufTy).Contents (Elt Ideal)) (x4 : (⟨S360x90, .f32⟩ : BufTy).Contents (Elt Ideal)) (x5 x6 : (⟨S360, .f32⟩ : BufTy).Contents (Elt Ideal)) (x7 : (⟨S40x21600, .f32⟩ : BufTy).Contents (Elt Ideal)) (x8 : (⟨S40, .f32⟩ : BufTy).Contents (Elt Ideal)) :
    val_main_v79 (F := Ideal) x0 x1 x2 x3 x4 x5 x6 x7 x8
      = Cert.KernelIdeal.KValue.tail (val_main_v67 (F := Ideal) x0 x1 x2 x3 x4 x5 x6 x7 x8) := by
  unfold val_main_v79 val_main_v78 val_main_v77 val_main_v76 val_main_v75 val_main_v74 val_main_v73 val_main_v72 val_main_v71
    val_main_v70 val_main_v69 val_main_v68 val_main_cst_9 val_main_cst_10 val_main_cst_11 Cert.KernelIdeal.KValue.tail
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the softmax of the same logits of arguments that agree. -/
theorem algebraic : Cert.algebraic_KernelIdeal_ReferenceIdeal := by
  intro m ρ m' ρ' _ hagree
  refine ⟨fun c => Cert.KernelIdeal.KValue.tail (Cert.KernelIdeal.KValue.logitsArgs m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [val_main_v79_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2, ref_result]
  refine congrArg Cert.KernelIdeal.KValue.tail ?_
  funext i
  rw [logits_ref]
  rfl

end Cert.Proof.Bridge

namespace Cert.Proof

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, trivial, Bridge.algebraic⟩

end Cert.Proof

end
